-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x200 : Shape := ⟨2, ![20000, 200]⟩
abbrev S460x200 : Shape := ⟨2, ![460, 200]⟩
abbrev S200x200 : Shape := ⟨2, ![200, 200]⟩
abbrev S20000 : Shape := ⟨1, ![20000]⟩
abbrev S400000 : Shape := ⟨1, ![400000]⟩
abbrev S_ : Shape := ⟨0, ![]⟩

class Facts : Prop where
  bcast_S_S20000x200 : S_.BroadcastsInDim S20000x200 (![] : Fin 0 → Fin S20000x200.rank)
  reducesTo_S20000x200_S_d0_1 : S20000x200.ReducesTo [0, 1] S_
  h_S_ : 0 < S_.numel
  bcast_S_S460x200 : S_.BroadcastsInDim S460x200 (![] : Fin 0 → Fin S460x200.rank)
  reducesTo_S460x200_S_d0_1 : S460x200.ReducesTo [0, 1] S_
  bcast_S_S200x200 : S_.BroadcastsInDim S200x200 (![] : Fin 0 → Fin S200x200.rank)
  reducesTo_S200x200_S_d0_1 : S200x200.ReducesTo [0, 1] S_
  bcast_S_S20000 : S_.BroadcastsInDim S20000 (![] : Fin 0 → Fin S20000.rank)
  reducesTo_S20000_S_d0 : S20000.ReducesTo [0] S_
  bcast_S_S400000 : S_.BroadcastsInDim S400000 (![] : Fin 0 → Fin S400000.rank)
  reducesTo_S400000_S_d0 : S400000.ReducesTo [0] S_

variable [Facts]

def fn_part3 {F : FTy → Type} [FloatOps F] (main_arg11 : IVec S400000 32) (main_v45 : IVec S_ 1) (main_v50 : IVec S400000 1) : IVec S_ 1 :=
  let main_c_19 : IVec S_ 1 := constantI S_ 1 1#1
  let main_v51 : IVec S_ 1 := (fun x v => Host.reduce IntOp.andi x v reducesTo_S400000_S_d0 h_S_) main_v50 main_c_19
  let main_v52 : IVec S_ 1 := andi main_v45 main_v51
  let main_c_20 : IVec S_ 32 := constantI S_ 32 0#32
  let main_v53 : IVec S400000 32 := broadcastInDim S400000 ![] bcast_S_S400000 main_c_20
  let main_v54 : IVec S400000 1 := cmpi .sge main_arg11 main_v53
  let main_c_21 : IVec S_ 32 := constantI S_ 32 460#32
  let main_v55 : IVec S400000 32 := broadcastInDim S400000 ![] bcast_S_S400000 main_c_21
  let main_v56 : IVec S400000 1 := cmpi .slt main_arg11 main_v55
  let main_v57 : IVec S400000 1 := andi main_v54 main_v56
  let main_c_22 : IVec S_ 1 := constantI S_ 1 1#1
  let main_v58 : IVec S_ 1 := (fun x v => Host.reduce IntOp.andi x v reducesTo_S400000_S_d0 h_S_) main_v57 main_c_22
  let main_v59 : IVec S_ 1 := andi main_v52 main_v58
  main_v59

def fn_part2 {F : FTy → Type} [FloatOps F] (main_arg7 : FVec F S200x200 .f32) (main_arg8 : IVec S20000 32) (main_arg9 : IVec S400000 32) (main_arg11 : IVec S400000 32) (main_v33 : IVec S_ 1) : IVec S_ 1 :=
  let main_v34 : FVec F S200x200 .f32 := Host.absf main_arg7
  let main_cst_12 : FVec F S_ .f32 := constant S_ .f32 0x7F800000#32
  let main_v35 : FVec F S200x200 .f32 := broadcastInDim S200x200 ![] bcast_S_S200x200 main_cst_12
  let main_v36 : IVec S200x200 1 := cmpf .olt main_v34 main_v35
  let main_c_13 : IVec S_ 1 := constantI S_ 1 1#1
  let main_v37 : IVec S_ 1 := (fun x v => Host.reduce IntOp.andi x v reducesTo_S200x200_S_d0_1 h_S_) main_v36 main_c_13
  let main_v38 : IVec S_ 1 := andi main_v33 main_v37
  let main_c_14 : IVec S_ 32 := constantI S_ 32 0#32
  let main_v39 : IVec S20000 32 := broadcastInDim S20000 ![] bcast_S_S20000 main_c_14
  let main_v40 : IVec S20000 1 := cmpi .sge main_arg8 main_v39
  let main_c_15 : IVec S_ 32 := constantI S_ 32 20000#32
  let main_v41 : IVec S20000 32 := broadcastInDim S20000 ![] bcast_S_S20000 main_c_15
  let main_v42 : IVec S20000 1 := cmpi .slt main_arg8 main_v41
  let main_v43 : IVec S20000 1 := andi main_v40 main_v42
  let main_c_16 : IVec S_ 1 := constantI S_ 1 1#1
  let main_v44 : IVec S_ 1 := (fun x v => Host.reduce IntOp.andi x v reducesTo_S20000_S_d0 h_S_) main_v43 main_c_16
  let main_v45 : IVec S_ 1 := andi main_v38 main_v44
  let main_c_17 : IVec S_ 32 := constantI S_ 32 0#32
  let main_v46 : IVec S400000 32 := broadcastInDim S400000 ![] bcast_S_S400000 main_c_17
  let main_v47 : IVec S400000 1 := cmpi .sge main_arg9 main_v46
  let main_c_18 : IVec S_ 32 := constantI S_ 32 20000#32
  let main_v48 : IVec S400000 32 := broadcastInDim S400000 ![] bcast_S_S400000 main_c_18
  let main_v49 : IVec S400000 1 := cmpi .slt main_arg9 main_v48
  let main_v50 : IVec S400000 1 := andi main_v47 main_v49
  fn_part3 (F := F) main_arg11 main_v45 main_v50

def fn_part1 {F : FTy → Type} [FloatOps F] (main_arg4 : FVec F S200x200 .f32) (main_arg5 : FVec F S200x200 .f32) (main_arg6 : FVec F S200x200 .f32) (main_arg7 : FVec F S200x200 .f32) (main_arg8 : IVec S20000 32) (main_arg9 : IVec S400000 32) (main_arg11 : IVec S400000 32) (main_v13 : IVec S_ 1) (main_v16 : IVec S200x200 1) : IVec S_ 1 :=
  let main_c_5 : IVec S_ 1 := constantI S_ 1 1#1
  let main_v17 : IVec S_ 1 := (fun x v => Host.reduce IntOp.andi x v reducesTo_S200x200_S_d0_1 h_S_) main_v16 main_c_5
  let main_v18 : IVec S_ 1 := andi main_v13 main_v17
  let main_v19 : FVec F S200x200 .f32 := Host.absf main_arg4
  let main_cst_6 : FVec F S_ .f32 := constant S_ .f32 0x7F800000#32
  let main_v20 : FVec F S200x200 .f32 := broadcastInDim S200x200 ![] bcast_S_S200x200 main_cst_6
  let main_v21 : IVec S200x200 1 := cmpf .olt main_v19 main_v20
  let main_c_7 : IVec S_ 1 := constantI S_ 1 1#1
  let main_v22 : IVec S_ 1 := (fun x v => Host.reduce IntOp.andi x v reducesTo_S200x200_S_d0_1 h_S_) main_v21 main_c_7
  let main_v23 : IVec S_ 1 := andi main_v18 main_v22
  let main_v24 : FVec F S200x200 .f32 := Host.absf main_arg5
  let main_cst_8 : FVec F S_ .f32 := constant S_ .f32 0x7F800000#32
  let main_v25 : FVec F S200x200 .f32 := broadcastInDim S200x200 ![] bcast_S_S200x200 main_cst_8
  let main_v26 : IVec S200x200 1 := cmpf .olt main_v24 main_v25
  let main_c_9 : IVec S_ 1 := constantI S_ 1 1#1
  let main_v27 : IVec S_ 1 := (fun x v => Host.reduce IntOp.andi x v reducesTo_S200x200_S_d0_1 h_S_) main_v26 main_c_9
  let main_v28 : IVec S_ 1 := andi main_v23 main_v27
  let main_v29 : FVec F S200x200 .f32 := Host.absf main_arg6
  let main_cst_10 : FVec F S_ .f32 := constant S_ .f32 0x7F800000#32
  let main_v30 : FVec F S200x200 .f32 := broadcastInDim S200x200 ![] bcast_S_S200x200 main_cst_10
  let main_v31 : IVec S200x200 1 := cmpf .olt main_v29 main_v30
  let main_c_11 : IVec S_ 1 := constantI S_ 1 1#1
  let main_v32 : IVec S_ 1 := (fun x v => Host.reduce IntOp.andi x v reducesTo_S200x200_S_d0_1 h_S_) main_v31 main_c_11
  let main_v33 : IVec S_ 1 := andi main_v28 main_v32
  fn_part2 (F := F) main_arg7 main_arg8 main_arg9 main_arg11 main_v33

def fn {F : FTy → Type} [FloatOps F] (main_arg0 : FVec F S20000x200 .f32) (main_arg1 : FVec F S460x200 .f32) (main_arg2 : FVec F S200x200 .f32) (main_arg3 : FVec F S200x200 .f32) (main_arg4 : FVec F S200x200 .f32) (main_arg5 : FVec F S200x200 .f32) (main_arg6 : FVec F S200x200 .f32) (main_arg7 : FVec F S200x200 .f32) (main_arg8 : IVec S20000 32) (main_arg9 : IVec S400000 32) (main_arg10 : IVec S400000 32) (main_arg11 : IVec S400000 32) : IVec S_ 1 :=
  let main_v0 : FVec F S20000x200 .f32 := Host.absf main_arg0
  let main_cst : FVec F S_ .f32 := constant S_ .f32 0x7F800000#32
  let main_v1 : FVec F S20000x200 .f32 := broadcastInDim S20000x200 ![] bcast_S_S20000x200 main_cst
  let main_v2 : IVec S20000x200 1 := cmpf .olt main_v0 main_v1
  let main_c : IVec S_ 1 := constantI S_ 1 1#1
  let main_v3 : IVec S_ 1 := (fun x v => Host.reduce IntOp.andi x v reducesTo_S20000x200_S_d0_1 h_S_) main_v2 main_c
  let main_v4 : FVec F S460x200 .f32 := Host.absf main_arg1
  let main_cst_0 : FVec F S_ .f32 := constant S_ .f32 0x7F800000#32
  let main_v5 : FVec F S460x200 .f32 := broadcastInDim S460x200 ![] bcast_S_S460x200 main_cst_0
  let main_v6 : IVec S460x200 1 := cmpf .olt main_v4 main_v5
  let main_c_1 : IVec S_ 1 := constantI S_ 1 1#1
  let main_v7 : IVec S_ 1 := (fun x v => Host.reduce IntOp.andi x v reducesTo_S460x200_S_d0_1 h_S_) main_v6 main_c_1
  let main_v8 : IVec S_ 1 := andi main_v3 main_v7
  let main_v9 : FVec F S200x200 .f32 := Host.absf main_arg2
  let main_cst_2 : FVec F S_ .f32 := constant S_ .f32 0x7F800000#32
  let main_v10 : FVec F S200x200 .f32 := broadcastInDim S200x200 ![] bcast_S_S200x200 main_cst_2
  let main_v11 : IVec S200x200 1 := cmpf .olt main_v9 main_v10
  let main_c_3 : IVec S_ 1 := constantI S_ 1 1#1
  let main_v12 : IVec S_ 1 := (fun x v => Host.reduce IntOp.andi x v reducesTo_S200x200_S_d0_1 h_S_) main_v11 main_c_3
  let main_v13 : IVec S_ 1 := andi main_v8 main_v12
  let main_v14 : FVec F S200x200 .f32 := Host.absf main_arg3
  let main_cst_4 : FVec F S_ .f32 := constant S_ .f32 0x7F800000#32
  let main_v15 : FVec F S200x200 .f32 := broadcastInDim S200x200 ![] bcast_S_S200x200 main_cst_4
  let main_v16 : IVec S200x200 1 := cmpf .olt main_v14 main_v15
  fn_part1 (F := F) main_arg4 main_arg5 main_arg6 main_arg7 main_arg8 main_arg9 main_arg11 main_v13 main_v16
-- ==== Kernel.lean ====
abbrev S20000x200 : Shape := ⟨2, ![20000, 200]⟩
abbrev S460x200 : Shape := ⟨2, ![460, 200]⟩
abbrev S200x200 : Shape := ⟨2, ![200, 200]⟩
abbrev S20000 : Shape := ⟨1, ![20000]⟩
abbrev S400000 : Shape := ⟨1, ![400000]⟩
abbrev S_ : Shape := ⟨0, ![]⟩
abbrev S20000x1 : Shape := ⟨2, ![20000, 1]⟩
abbrev S1 : Shape := ⟨1, ![1]⟩
abbrev S1x1 : Shape := ⟨2, ![1, 1]⟩
abbrev S400000x1 : Shape := ⟨2, ![400000, 1]⟩
abbrev S400000x200 : Shape := ⟨2, ![400000, 200]⟩
abbrev S4000x200 : Shape := ⟨2, ![4000, 200]⟩
abbrev S2000x200 : Shape := ⟨2, ![2000, 200]⟩
abbrev S2000x1 : Shape := ⟨2, ![2000, 1]⟩

abbrev nBuf : Space → Nat
  | .hbm => 157
  | .vmem => 38
  | .smem => 0
  | _ => 0

abbrev hbmTy0_0 (i : Nat) : BufTy := match i % 128 with
  | 0 => ⟨S20000x200, .f32⟩
  | 1 => ⟨S460x200, .f32⟩
  | 2 => ⟨S200x200, .f32⟩
  | 3 => ⟨S200x200, .f32⟩
  | 4 => ⟨S200x200, .f32⟩
  | 5 => ⟨S200x200, .f32⟩
  | 6 => ⟨S200x200, .f32⟩
  | 7 => ⟨S200x200, .f32⟩
  | 8 => ⟨S20000, .i32⟩
  | 9 => ⟨S400000, .i32⟩
  | 10 => ⟨S400000, .i32⟩
  | 11 => ⟨S400000, .i32⟩
  | 12 => ⟨S_, .i32⟩
  | 13 => ⟨S20000, .i32⟩
  | 14 => ⟨S20000, .i1⟩
  | 15 => ⟨S_, .i32⟩
  | 16 => ⟨S20000, .i32⟩
  | 17 => ⟨S20000, .i32⟩
  | 18 => ⟨S20000, .i32⟩
  | 19 => ⟨S20000x1, .i32⟩
  | 20 => ⟨S1, .i32⟩
  | 21 => ⟨S_, .i32⟩
  | 22 => ⟨S20000x1, .i32⟩
  | 23 => ⟨S20000x1, .i1⟩
  | 24 => ⟨S1x1, .i32⟩
  | 25 => ⟨S20000x1, .i32⟩
  | 26 => ⟨S20000x1, .i1⟩
  | 27 => ⟨S20000x1, .i1⟩
  | 28 => ⟨S_, .i1⟩
  | 29 => ⟨S20000, .i1⟩
  | 30 => ⟨S20000x200, .f32⟩
  | 31 => ⟨S20000x200, .i1⟩
  | 32 => ⟨S_, .f32⟩
  | 33 => ⟨S20000x200, .f32⟩
  | 34 => ⟨S20000x200, .f32⟩
  | 35 => ⟨S_, .f32⟩
  | 36 => ⟨S400000, .f32⟩
  | 37 => ⟨S_, .f32⟩
  | 38 => ⟨S20000, .f32⟩
  | 39 => ⟨S400000x1, .i32⟩
  | 40 => ⟨S20000, .f32⟩
  | 41 => ⟨S_, .f32⟩
  | 42 => ⟨S20000, .f32⟩
  | 43 => ⟨S20000, .f32⟩
  | 44 => ⟨S_, .f32⟩
  | 45 => ⟨S20000, .f32⟩
  | 46 => ⟨S20000, .f32⟩
  | 47 => ⟨S20000x1, .f32⟩
  | 48 => ⟨S_, .f32⟩
  | 49 => ⟨S20000, .f32⟩
  | 50 => ⟨S20000, .i1⟩
  | 51 => ⟨S20000, .f32⟩
  | 52 => ⟨S20000x1, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S1, .i32⟩
  | 62 => ⟨S_, .i32⟩
  | 63 => ⟨S400000x1, .i32⟩
  | 64 => ⟨S400000x1, .i1⟩
  | 65 => ⟨S1x1, .i32⟩
  | 66 => ⟨S400000x1, .i32⟩
  | 67 => ⟨S400000x1, .i1⟩
  | 68 => ⟨S400000x1, .i1⟩
  | 69 => ⟨S_, .i1⟩
  | 70 => ⟨S400000, .i1⟩
  | 71 => ⟨S400000x200, .f32⟩
  | 72 => ⟨S400000x200, .i1⟩
  | 73 => ⟨S_, .f32⟩
  | 74 => ⟨S400000x200, .f32⟩
  | 75 => ⟨S400000x200, .f32⟩
  | 76 => ⟨S_, .i32⟩
  | 77 => ⟨S400000, .i32⟩
  | 78 => ⟨S400000, .i1⟩
  | 79 => ⟨S_, .i32⟩
  | 80 => ⟨S400000, .i32⟩
  | 81 => ⟨S400000, .i32⟩
  | 82 => ⟨S400000, .i32⟩
  | 83 => ⟨S400000x1, .i32⟩
  | 84 => ⟨S1, .i32⟩
  | 85 => ⟨S_, .i32⟩
  | 86 => ⟨S400000x1, .i32⟩
  | 87 => ⟨S400000x1, .i1⟩
  | 88 => ⟨S1x1, .i32⟩
  | 89 => ⟨S400000x1, .i32⟩
  | 90 => ⟨S400000x1, .i1⟩
  | 91 => ⟨S400000x1, .i1⟩
  | 92 => ⟨S_, .i1⟩
  | 93 => ⟨S400000, .i1⟩
  | 94 => ⟨S400000x200, .f32⟩
  | 95 => ⟨S400000x200, .i1⟩
  | 96 => ⟨S_, .f32⟩
  | 97 => ⟨S400000x200, .f32⟩
  | 98 => ⟨S400000x200, .f32⟩
  | 99 => ⟨S400000x200, .f32⟩
  | 100 => ⟨S_, .f32⟩
  | 101 => ⟨S20000x200, .f32⟩
  | 102 => ⟨S400000x1, .i32⟩
  | 103 => ⟨S20000x200, .f32⟩
  | 104 => ⟨S20000x200, .f32⟩
  | 105 => ⟨S_, .i32⟩
  | 106 => ⟨S400000, .i32⟩
  | 107 => ⟨S400000, .i1⟩
  | 108 => ⟨S_, .i32⟩
  | 109 => ⟨S400000, .i32⟩
  | 110 => ⟨S400000, .i32⟩
  | 111 => ⟨S400000, .i32⟩
  | 112 => ⟨S400000x1, .i32⟩
  | 113 => ⟨S1, .i32⟩
  | 114 => ⟨S_, .i32⟩
  | 115 => ⟨S400000x1, .i32⟩
  | 116 => ⟨S400000x1, .i1⟩
  | 117 => ⟨S1x1, .i32⟩
  | 118 => ⟨S400000x1, .i32⟩
  | 119 => ⟨S400000x1, .i1⟩
  | 120 => ⟨S400000x1, .i1⟩
  | 121 => ⟨S_, .i1⟩
  | 122 => ⟨S400000, .i1⟩
  | 123 => ⟨S400000x200, .f32⟩
  | 124 => ⟨S400000x200, .i1⟩
  | 125 => ⟨S_, .f32⟩
  | 126 => ⟨S400000x200, .f32⟩
  | 127 => ⟨S400000x200, .f32⟩
  | _ => ⟨S20000x200, .f32⟩

abbrev hbmTy0_1 (i : Nat) : BufTy := match i % 128 with
  | 0 => ⟨S_, .i32⟩
  | 1 => ⟨S400000, .i32⟩
  | 2 => ⟨S400000, .i1⟩
  | 3 => ⟨S_, .i32⟩
  | 4 => ⟨S400000, .i32⟩
  | 5 => ⟨S400000, .i32⟩
  | 6 => ⟨S400000, .i32⟩
  | 7 => ⟨S400000x1, .i32⟩
  | 8 => ⟨S1, .i32⟩
  | 9 => ⟨S_, .i32⟩
  | 10 => ⟨S400000x1, .i32⟩
  | 11 => ⟨S400000x1, .i1⟩
  | 12 => ⟨S1x1, .i32⟩
  | 13 => ⟨S400000x1, .i32⟩
  | 14 => ⟨S400000x1, .i1⟩
  | 15 => ⟨S400000x1, .i1⟩
  | 16 => ⟨S_, .i1⟩
  | 17 => ⟨S400000, .i1⟩
  | 18 => ⟨S400000x200, .f32⟩
  | 19 => ⟨S400000x200, .i1⟩
  | 20 => ⟨S_, .f32⟩
  | 21 => ⟨S400000x200, .f32⟩
  | 22 => ⟨S400000x200, .f32⟩
  | 23 => ⟨S400000x200, .f32⟩
  | 24 => ⟨S_, .f32⟩
  | 25 => ⟨S20000x200, .f32⟩
  | 26 => ⟨S400000x1, .i32⟩
  | 27 => ⟨S20000x200, .f32⟩
  | 28 => ⟨S20000x200, .f32⟩
  | _ => ⟨S20000x200, .f32⟩

abbrev hbmTy (i : Nat) : BufTy := match i / 128 with
  | 0 => hbmTy0_0 i
  | 1 => hbmTy0_1 i
  | _ => ⟨S20000x200, .f32⟩

abbrev bufTy : (tb : Table) → Fin (tcTables nBuf tb) → BufTy
  | .hbm, ⟨i, _⟩ => hbmTy i
  | .local _ .vmem, ⟨0, _⟩ => ⟨S4000x200, .f32⟩
  | .local _ .vmem, ⟨1, _⟩ => ⟨S4000x200, .f32⟩
  | .local _ .vmem, ⟨2, _⟩ => ⟨S4000x200, .f32⟩
  | .local _ .vmem, ⟨3, _⟩ => ⟨S4000x200, .f32⟩
  | .local _ .vmem, ⟨4, _⟩ => ⟨S200x200, .f32⟩
  | .local _ .vmem, ⟨5, _⟩ => ⟨S4000x200, .f32⟩
  | .local _ .vmem, ⟨6, _⟩ => ⟨S4000x200, .f32⟩
  | .local _ .vmem, ⟨7, _⟩ => ⟨S2000x200, .f32⟩
  | .local _ .vmem, ⟨8, _⟩ => ⟨S2000x200, .f32⟩
  | .local _ .vmem, ⟨9, _⟩ => ⟨S2000x200, .f32⟩
  | .local _ .vmem, ⟨10, _⟩ => ⟨S2000x200, .f32⟩
  | .local _ .vmem, ⟨11, _⟩ => ⟨S2000x1, .f32⟩
  | .local _ .vmem, ⟨12, _⟩ => ⟨S2000x1, .f32⟩
  | .local _ .vmem, ⟨13, _⟩ => ⟨S2000x1, .f32⟩
  | .local _ .vmem, ⟨14, _⟩ => ⟨S2000x1, .f32⟩
  | .local _ .vmem, ⟨15, _⟩ => ⟨S200x200, .f32⟩
  | .local _ .vmem, ⟨16, _⟩ => ⟨S200x200, .f32⟩
  | .local _ .vmem, ⟨17, _⟩ => ⟨S2000x200, .f32⟩
  | .local _ .vmem, ⟨18, _⟩ => ⟨S2000x200, .f32⟩
  | .local _ .vmem, ⟨19, _⟩ => ⟨S4000x200, .f32⟩
  | .local _ .vmem, ⟨20, _⟩ => ⟨S4000x200, .f32⟩
  | .local _ .vmem, ⟨21, _⟩ => ⟨S4000x200, .f32⟩
  | .local _ .vmem, ⟨22, _⟩ => ⟨S4000x200, .f32⟩
  | .local _ .vmem, ⟨23, _⟩ => ⟨S200x200, .f32⟩
  | .local _ .vmem, ⟨24, _⟩ => ⟨S4000x200, .f32⟩
  | .local _ .vmem, ⟨25, _⟩ => ⟨S4000x200, .f32⟩
  | .local _ .vmem, ⟨26, _⟩ => ⟨S2000x200, .f32⟩
  | .local _ .vmem, ⟨27, _⟩ => ⟨S2000x200, .f32⟩
  | .local _ .vmem, ⟨28, _⟩ => ⟨S2000x200, .f32⟩
  | .local _ .vmem, ⟨29, _⟩ => ⟨S2000x200, .f32⟩
  | .local _ .vmem, ⟨30, _⟩ => ⟨S2000x1, .f32⟩
  | .local _ .vmem, ⟨31, _⟩ => ⟨S2000x1, .f32⟩
  | .local _ .vmem, ⟨32, _⟩ => ⟨S2000x1, .f32⟩
  | .local _ .vmem, ⟨33, _⟩ => ⟨S2000x1, .f32⟩
  | .local _ .vmem, ⟨34, _⟩ => ⟨S200x200, .f32⟩
  | .local _ .vmem, ⟨35, _⟩ => ⟨S200x200, .f32⟩
  | .local _ .vmem, ⟨36, _⟩ => ⟨S2000x200, .f32⟩
  | .local _ .vmem, ⟨37, _⟩ => ⟨S2000x200, .f32⟩
  | _, _ => ⟨S20000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_cst : Ref sig .tc := ⟨.hbm, 35, rfl⟩
abbrev main_v1 : Ref sig .tc := ⟨.hbm, 36, rfl⟩
abbrev main_cst_0 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_cst_1 : Ref sig .tc := ⟨.hbm, 41, rfl⟩
abbrev main_v5 : Ref sig .tc := ⟨.hbm, 42, rfl⟩
abbrev main_v6 : Ref sig .tc := ⟨.hbm, 43, rfl⟩
abbrev main_cst_2 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_cst_3 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v14 : Ref sig .tc := ⟨.hbm, 75, rfl⟩
abbrev main_call2_c : Ref sig .tc := ⟨.hbm, 76, rfl⟩
abbrev main_call2_v0 : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_c_1 : Ref sig .tc := ⟨.hbm, 84, rfl⟩
abbrev main_call2_c_2 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_3 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_call2_cst : Ref sig .tc := ⟨.hbm, 96, rfl⟩
abbrev main_call2_v15 : Ref sig .tc := ⟨.hbm, 97, rfl⟩
abbrev main_v15 : Ref sig .tc := ⟨.hbm, 98, rfl⟩
abbrev main_v16 : Ref sig .tc := ⟨.hbm, 99, rfl⟩
abbrev main_cst_4 : Ref sig .tc := ⟨.hbm, 100, rfl⟩
abbrev main_v17 : Ref sig .tc := ⟨.hbm, 101, rfl⟩
abbrev main_v18 : Ref sig .tc := ⟨.hbm, 102, rfl⟩
abbrev main_v19 : Ref sig .tc := ⟨.hbm, 103, rfl⟩
abbrev main_v20 : Ref sig .tc := ⟨.hbm, 104, rfl⟩
abbrev main_call3_c : Ref sig .tc := ⟨.hbm, 105, rfl⟩
abbrev main_call3_v0 : Ref sig .tc := ⟨.hbm, 106, rfl⟩
abbrev main_call3_v1 : Ref sig .tc := ⟨.hbm, 107, rfl⟩
abbrev main_call3_c_0 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_c_1 : Ref sig .tc := ⟨.hbm, 113, rfl⟩
abbrev main_call3_c_2 : Ref sig .tc := ⟨.hbm, 114, rfl⟩
abbrev main_call3_v6 : Ref sig .tc := ⟨.hbm, 115, rfl⟩
abbrev main_call3_v7 : Ref sig .tc := ⟨.hbm, 116, rfl⟩
abbrev main_call3_v8 : Ref sig .tc := ⟨.hbm, 117, rfl⟩
abbrev main_call3_v9 : Ref sig .tc := ⟨.hbm, 118, rfl⟩
abbrev main_call3_v10 : Ref sig .tc := ⟨.hbm, 119, rfl⟩
abbrev main_call3_v11 : Ref sig .tc := ⟨.hbm, 120, rfl⟩
abbrev main_call3_c_3 : Ref sig .tc := ⟨.hbm, 121, rfl⟩
abbrev main_call3_v12 : Ref sig .tc := ⟨.hbm, 122, rfl⟩
abbrev main_call3_v13 : Ref sig .tc := ⟨.hbm, 123, rfl⟩
abbrev main_call3_v14 : Ref sig .tc := ⟨.hbm, 124, rfl⟩
abbrev main_call3_cst : Ref sig .tc := ⟨.hbm, 125, rfl⟩
abbrev main_call3_v15 : Ref sig .tc := ⟨.hbm, 126, rfl⟩
abbrev main_v21 : Ref sig .tc := ⟨.hbm, 127, rfl⟩
abbrev main_call4_c : Ref sig .tc := ⟨.hbm, 128, rfl⟩
abbrev main_call4_v0 : Ref sig .tc := ⟨.hbm, 129, rfl⟩
abbrev main_call4_v1 : Ref sig .tc := ⟨.hbm, 130, rfl⟩
abbrev main_call4_c_0 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_v5 : Ref sig .tc := ⟨.hbm, 135, rfl⟩
abbrev main_call4_c_1 : Ref sig .tc := ⟨.hbm, 136, rfl⟩
abbrev main_call4_c_2 : Ref sig .tc := ⟨.hbm, 137, rfl⟩
abbrev main_call4_v6 : Ref sig .tc := ⟨.hbm, 138, rfl⟩
abbrev main_call4_v7 : Ref sig .tc := ⟨.hbm, 139, rfl⟩
abbrev main_call4_v8 : Ref sig .tc := ⟨.hbm, 140, rfl⟩
abbrev main_call4_v9 : Ref sig .tc := ⟨.hbm, 141, rfl⟩
abbrev main_call4_v10 : Ref sig .tc := ⟨.hbm, 142, rfl⟩
abbrev main_call4_v11 : Ref sig .tc := ⟨.hbm, 143, rfl⟩
abbrev main_call4_c_3 : Ref sig .tc := ⟨.hbm, 144, rfl⟩
abbrev main_call4_v12 : Ref sig .tc := ⟨.hbm, 145, rfl⟩
abbrev main_call4_v13 : Ref sig .tc := ⟨.hbm, 146, rfl⟩
abbrev main_call4_v14 : Ref sig .tc := ⟨.hbm, 147, rfl⟩
abbrev main_call4_cst : Ref sig .tc := ⟨.hbm, 148, rfl⟩
abbrev main_call4_v15 : Ref sig .tc := ⟨.hbm, 149, rfl⟩
abbrev main_v22 : Ref sig .tc := ⟨.hbm, 150, rfl⟩
abbrev main_v23 : Ref sig .tc := ⟨.hbm, 151, rfl⟩
abbrev main_cst_5 : Ref sig .tc := ⟨.hbm, 152, rfl⟩
abbrev main_v24 : Ref sig .tc := ⟨.hbm, 153, rfl⟩
abbrev main_v25 : Ref sig .tc := ⟨.hbm, 154, rfl⟩
abbrev main_v26 : Ref sig .tc := ⟨.hbm, 155, rfl⟩
abbrev main_v27 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem5_0 : DmaSem sig := 35
abbrev cc3_sem6_0 : DmaSem sig := 36
abbrev cc3_sem6_1 : DmaSem sig := 37

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S200x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S200x200 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S200x200 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x200 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x200 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x200 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S200x200 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x200 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x200 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S200x200 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S200x200 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x200 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  reducesTo_S20000x1_S20000_d1 : S20000x1.ReducesTo [1] S20000
  h_S_ : 0 < S_.numel
  bcast_S20000_S20000x200_0 : S20000.BroadcastsInDim S20000x200 (![0] : Fin 1 → Fin S20000x200.rank)
  bcast_S_S20000x200 : S_.BroadcastsInDim S20000x200 (![] : Fin 0 → Fin S20000x200.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1x1_S400000x1_0_1 : S1x1.BroadcastsInDim S400000x1 (![0, 1] : Fin 2 → Fin S400000x1.rank)
  reducesTo_S400000x1_S400000_d1 : S400000x1.ReducesTo [1] S400000
  bcast_S400000_S400000x200_0 : S400000.BroadcastsInDim S400000x200 (![0] : Fin 1 → Fin S400000x200.rank)
  bcast_S_S400000x200 : S_.BroadcastsInDim S400000x200 (![] : Fin 0 → Fin S400000x200.rank)
  inb_S4000x200_S4000x200_0_0 : ∀ a, (![0, 0] : Fin 2 → Nat) a + S4000x200.size a ≤ S4000x200.size a
  h_S4000x200 : 0 < S4000x200.numel
  shapeCasts_S4000x200_S4000x200 : S4000x200.ShapeCasts S4000x200
  bitsLt_bf16_f32 : FTy.bits .bf16 < FTy.bits .f32
  inb_S200x200_S200x200_0_0 : ∀ a, (![0, 0] : Fin 2 → Nat) a + S200x200.size a ≤ S200x200.size a
  h_S200x200 : 0 < S200x200.numel
  inb_S2000x200_S2000x200_0_0 : ∀ a, (![0, 0] : Fin 2 → Nat) a + S2000x200.size a ≤ S2000x200.size a
  h_S2000x200 : 0 < S2000x200.numel
  shapeCasts_S2000x200_S2000x200 : S2000x200.ShapeCasts S2000x200
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x200 : S2000x1.Broadcasts S2000x200
  gather_S20000x200_S20000x1_S20000x200_1_0_n_n_0_1_1200_wf : GatherDims.WF S20000x200 S20000x1 S20000x200 [1] [0] [] [0] [] 1 ![1, 200]
  scatter_S20000_S400000x1_S400000_n_0_0_1_wf : ScatterDims.WF S20000 S400000x1 S400000 [] [0] [0] 1
  gather_S20000x200_S400000x1_S400000x200_1_0_n_n_0_1_1200_wf : GatherDims.WF S20000x200 S400000x1 S400000x200 [1] [0] [] [0] [] 1 ![1, 200]
  gather_S460x200_S400000x1_S400000x200_1_0_n_n_0_1_1200_wf : GatherDims.WF S460x200 S400000x1 S400000x200 [1] [0] [] [0] [] 1 ![1, 200]
  dot_S4000x200_S200x200_S4000x200_1_0_0_1_n_n_wf : DotDims.WF S4000x200 S200x200 S4000x200 [1] [0] [0] [1] [] []
  scatter_S20000x200_S400000x1_S400000x200_1_0_0_1_wf : ScatterDims.WF S20000x200 S400000x1 S400000x200 [1] [0] [0] 1
  dot_S2000x200_S200x200_S2000x200_1_0_0_1_n_n_wf : DotDims.WF S2000x200 S200x200 S2000x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x200.size a ≤ S400000x200.size a
  hwx0_0 : ∀ i : grid0.Coords, EltTy.bits .f32 = 32 ∨ (Rect.block (s := S400000x200) S4000x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x200.size a ≤ S400000x200.size a
  hwx0_1 : ∀ i : grid0.Coords, EltTy.bits .f32 = 32 ∨ (Rect.block (s := S400000x200) S4000x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S200x200.size a ≤ S200x200.size a
  hwx0_2 : ∀ i : grid0.Coords, EltTy.bits .f32 = 32 ∨ (Rect.block (s := S200x200) S200x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x200.size a ≤ S400000x200.size a
  hwx0_3 : ∀ i : grid0.Coords, EltTy.bits .f32 = 32 ∨ (Rect.block (s := S400000x200) S4000x200.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x200.size a ≤ S20000x200.size a
  hwx1_0 : ∀ i : grid1.Coords, EltTy.bits .f32 = 32 ∨ (Rect.block (s := S20000x200) S2000x200.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x200.size a ≤ S20000x200.size a
  hwx1_1 : ∀ i : grid1.Coords, EltTy.bits .f32 = 32 ∨ (Rect.block (s := S20000x200) S2000x200.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S20000x1.size a
  hwx1_2 : ∀ i : grid1.Coords, EltTy.bits .f32 = 32 ∨ (Rect.block (s := S20000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S20000x1.size a
  hwx1_3 : ∀ i : grid1.Coords, EltTy.bits .f32 = 32 ∨ (Rect.block (s := S20000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S200x200.size a ≤ S200x200.size a
  hwx1_4 : ∀ i : grid1.Coords, EltTy.bits .f32 = 32 ∨ (Rect.block (s := S200x200) S200x200.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S200x200.size a ≤ S200x200.size a
  hwx1_5 : ∀ i : grid1.Coords, EltTy.bits .f32 = 32 ∨ (Rect.block (s := S200x200) S200x200.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x200.size a ≤ S20000x200.size a
  hwx1_6 : ∀ i : grid1.Coords, EltTy.bits .f32 = 32 ∨ (Rect.block (s := S20000x200) S2000x200.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x200.size a ≤ S400000x200.size a
  hwx2_0 : ∀ i : grid2.Coords, EltTy.bits .f32 = 32 ∨ (Rect.block (s := S400000x200) S4000x200.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x200.size a ≤ S400000x200.size a
  hwx2_1 : ∀ i : grid2.Coords, EltTy.bits .f32 = 32 ∨ (Rect.block (s := S400000x200) S4000x200.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S200x200.size a ≤ S200x200.size a
  hwx2_2 : ∀ i : grid2.Coords, EltTy.bits .f32 = 32 ∨ (Rect.block (s := S200x200) S200x200.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x200.size a ≤ S400000x200.size a
  hwx2_3 : ∀ i : grid2.Coords, EltTy.bits .f32 = 32 ∨ (Rect.block (s := S400000x200) S4000x200.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x200.size a ≤ S20000x200.size a
  hwx3_0 : ∀ i : grid3.Coords, EltTy.bits .f32 = 32 ∨ (Rect.block (s := S20000x200) S2000x200.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x200.size a ≤ S20000x200.size a
  hwx3_1 : ∀ i : grid3.Coords, EltTy.bits .f32 = 32 ∨ (Rect.block (s := S20000x200) S2000x200.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S20000x1.size a
  hwx3_2 : ∀ i : grid3.Coords, EltTy.bits .f32 = 32 ∨ (Rect.block (s := S20000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S20000x1.size a
  hwx3_3 : ∀ i : grid3.Coords, EltTy.bits .f32 = 32 ∨ (Rect.block (s := S20000x1) S2000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S200x200.size a ≤ S200x200.size a
  hwx3_4 : ∀ i : grid3.Coords, EltTy.bits .f32 = 32 ∨ (Rect.block (s := S200x200) S200x200.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S200x200.size a ≤ S200x200.size a
  hwx3_5 : ∀ i : grid3.Coords, EltTy.bits .f32 = 32 ∨ (Rect.block (s := S200x200) S200x200.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x200.size a ≤ S20000x200.size a
  hwx3_6 : ∀ i : grid3.Coords, EltTy.bits .f32 = 32 ∨ (Rect.block (s := S20000x200) S2000x200.size (cc3_transform_6 i) (hinb3_6 i)).WholeWords (EltTy.packing .f32)

variable [Facts₀]

def gather_S20000x200_S20000x1_S20000x200_1_0_n_n_0_1_1200 : GatherDims S20000x200 S20000x1 S20000x200 where
  offsetDims := [1]
  collapsedSliceDims := [0]
  operandBatchingDims := []
  startIndicesBatchingDims := []
  startIndexMap := [0]
  indexVectorDim := 1
  sliceSizes := ![1, 200]
  wf := gather_S20000x200_S20000x1_S20000x200_1_0_n_n_0_1_1200_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf
def gather_S20000x200_S400000x1_S400000x200_1_0_n_n_0_1_1200 : GatherDims S20000x200 S400000x1 S400000x200 where
  offsetDims := [1]
  collapsedSliceDims := [0]
  operandBatchingDims := []
  startIndicesBatchingDims := []
  startIndexMap := [0]
  indexVectorDim := 1
  sliceSizes := ![1, 200]
  wf := gather_S20000x200_S400000x1_S400000x200_1_0_n_n_0_1_1200_wf
def gather_S460x200_S400000x1_S400000x200_1_0_n_n_0_1_1200 : GatherDims S460x200 S400000x1 S400000x200 where
  offsetDims := [1]
  collapsedSliceDims := [0]
  operandBatchingDims := []
  startIndicesBatchingDims := []
  startIndexMap := [0]
  indexVectorDim := 1
  sliceSizes := ![1, 200]
  wf := gather_S460x200_S400000x1_S400000x200_1_0_n_n_0_1_1200_wf
def dot_S4000x200_S200x200_S4000x200_1_0_0_1_n_n : DotDims S4000x200 S200x200 S4000x200 where
  lhsContracting := [1]
  rhsContracting := [0]
  lhsNonContracting := [0]
  rhsNonContracting := [1]
  lhsBatch := []
  rhsBatch := []
  wf := dot_S4000x200_S200x200_S4000x200_1_0_0_1_n_n_wf
def scatter_S20000x200_S400000x1_S400000x200_1_0_0_1 : ScatterDims S20000x200 S400000x1 S400000x200 where
  updateWindowDims := [1]
  insertedWindowDims := [0]
  scatterDimsToOperandDims := [0]
  indexVectorDim := 1
  wf := scatter_S20000x200_S400000x1_S400000x200_1_0_0_1_wf
def dot_S2000x200_S200x200_S2000x200_1_0_0_1_n_n : DotDims S2000x200 S200x200 S2000x200 where
  lhsContracting := [1]
  rhsContracting := [0]
  lhsNonContracting := [0]
  rhsNonContracting := [1]
  lhsBatch := []
  rhsBatch := []
  wf := dot_S2000x200_S200x200_S2000x200_1_0_0_1_n_n_wf

abbrev win0_0 : Pipeline.Window sig grid0 :=
  Pipeline.Window.ofSpec (Memref.whole main_v14) S4000x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S200x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x200.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S2000x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S200x200.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S200x200.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S2000x200.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v21) S4000x200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S4000x200.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S200x200.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S4000x200.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v20) S2000x200.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S2000x200.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v9) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v13) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S200x200.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg7) S200x200.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v27) S2000x200.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S20000x200 : Shape := ⟨2, ![20000, 200]⟩
abbrev S460x200 : Shape := ⟨2, ![460, 200]⟩
abbrev S200x200 : Shape := ⟨2, ![200, 200]⟩
abbrev S20000 : Shape := ⟨1, ![20000]⟩
abbrev S400000 : Shape := ⟨1, ![400000]⟩
abbrev S_ : Shape := ⟨0, ![]⟩
abbrev S20000x1 : Shape := ⟨2, ![20000, 1]⟩
abbrev S400000x1 : Shape := ⟨2, ![400000, 1]⟩
abbrev S400000x200 : Shape := ⟨2, ![400000, 200]⟩

abbrev nBuf : Space → Nat
  | .hbm => 114
  | .vmem => 0
  | .smem => 0
  | _ => 0

abbrev bufTy : (tb : Table) → Fin (tcTables nBuf tb) → BufTy
  | .hbm, ⟨0, _⟩ => ⟨S20000x200, .f32⟩
  | .hbm, ⟨1, _⟩ => ⟨S460x200, .f32⟩
  | .hbm, ⟨2, _⟩ => ⟨S200x200, .f32⟩
  | .hbm, ⟨3, _⟩ => ⟨S200x200, .f32⟩
  | .hbm, ⟨4, _⟩ => ⟨S200x200, .f32⟩
  | .hbm, ⟨5, _⟩ => ⟨S200x200, .f32⟩
  | .hbm, ⟨6, _⟩ => ⟨S200x200, .f32⟩
  | .hbm, ⟨7, _⟩ => ⟨S200x200, .f32⟩
  | .hbm, ⟨8, _⟩ => ⟨S20000, .i32⟩
  | .hbm, ⟨9, _⟩ => ⟨S400000, .i32⟩
  | .hbm, ⟨10, _⟩ => ⟨S400000, .i32⟩
  | .hbm, ⟨11, _⟩ => ⟨S400000, .i32⟩
  | .hbm, ⟨12, _⟩ => ⟨S_, .i32⟩
  | .hbm, ⟨13, _⟩ => ⟨S20000, .i32⟩
  | .hbm, ⟨14, _⟩ => ⟨S20000, .i1⟩
  | .hbm, ⟨15, _⟩ => ⟨S_, .i32⟩
  | .hbm, ⟨16, _⟩ => ⟨S20000, .i32⟩
  | .hbm, ⟨17, _⟩ => ⟨S20000, .i32⟩
  | .hbm, ⟨18, _⟩ => ⟨S20000, .i32⟩
  | .hbm, ⟨19, _⟩ => ⟨S20000x1, .i32⟩
  | .hbm, ⟨20, _⟩ => ⟨S20000x200, .f32⟩
  | .hbm, ⟨21, _⟩ => ⟨S_, .f32⟩
  | .hbm, ⟨22, _⟩ => ⟨S400000, .f32⟩
  | .hbm, ⟨23, _⟩ => ⟨S_, .f32⟩
  | .hbm, ⟨24, _⟩ => ⟨S20000, .f32⟩
  | .hbm, ⟨25, _⟩ => ⟨S400000x1, .i32⟩
  | .hbm, ⟨26, _⟩ => ⟨S20000, .f32⟩
  | .hbm, ⟨27, _⟩ => ⟨S_, .f32⟩
  | .hbm, ⟨28, _⟩ => ⟨S20000, .f32⟩
  | .hbm, ⟨29, _⟩ => ⟨S20000, .f32⟩
  | .hbm, ⟨30, _⟩ => ⟨S_, .f32⟩
  | .hbm, ⟨31, _⟩ => ⟨S20000, .f32⟩
  | .hbm, ⟨32, _⟩ => ⟨S20000, .f32⟩
  | .hbm, ⟨33, _⟩ => ⟨S20000x1, .f32⟩
  | .hbm, ⟨34, _⟩ => ⟨S_, .f32⟩
  | .hbm, ⟨35, _⟩ => ⟨S20000, .f32⟩
  | .hbm, ⟨36, _⟩ => ⟨S20000, .i1⟩
  | .hbm, ⟨37, _⟩ => ⟨S20000x1, .i1⟩
  | .hbm, ⟨38, _⟩ => ⟨S_, .i32⟩
  | .hbm, ⟨39, _⟩ => ⟨S400000, .i32⟩
  | .hbm, ⟨40, _⟩ => ⟨S400000, .i1⟩
  | .hbm, ⟨41, _⟩ => ⟨S_, .i32⟩
  | .hbm, ⟨42, _⟩ => ⟨S400000, .i32⟩
  | .hbm, ⟨43, _⟩ => ⟨S400000, .i32⟩
  | .hbm, ⟨44, _⟩ => ⟨S400000, .i32⟩
  | .hbm, ⟨45, _⟩ => ⟨S400000x1, .i32⟩
  | .hbm, ⟨46, _⟩ => ⟨S400000x200, .f32⟩
  | .hbm, ⟨47, _⟩ => ⟨S_, .i32⟩
  | .hbm, ⟨48, _⟩ => ⟨S400000, .i32⟩
  | .hbm, ⟨49, _⟩ => ⟨S400000, .i1⟩
  | .hbm, ⟨50, _⟩ => ⟨S_, .i32⟩
  | .hbm, ⟨51, _⟩ => ⟨S400000, .i32⟩
  | .hbm, ⟨52, _⟩ => ⟨S400000, .i32⟩
  | .hbm, ⟨53, _⟩ => ⟨S400000, .i32⟩
  | .hbm, ⟨54, _⟩ => ⟨S400000x1, .i32⟩
  | .hbm, ⟨55, _⟩ => ⟨S400000x200, .f32⟩
  | .hbm, ⟨56, _⟩ => ⟨S400000x200, .f32⟩
  | .hbm, ⟨57, _⟩ => ⟨S400000x200, .f32⟩
  | .hbm, ⟨58, _⟩ => ⟨S_, .f32⟩
  | .hbm, ⟨59, _⟩ => ⟨S20000x200, .f32⟩
  | .hbm, ⟨60, _⟩ => ⟨S400000x1, .i32⟩
  | .hbm, ⟨61, _⟩ => ⟨S20000x200, .f32⟩
  | .hbm, ⟨62, _⟩ => ⟨S20000x200, .f32⟩
  | .hbm, ⟨63, _⟩ => ⟨S20000x200, .f32⟩
  | .hbm, ⟨64, _⟩ => ⟨S20000x200, .f32⟩
  | .hbm, ⟨65, _⟩ => ⟨S20000x200, .f32⟩
  | .hbm, ⟨66, _⟩ => ⟨S20000x200, .i1⟩
  | .hbm, ⟨67, _⟩ => ⟨S20000x200, .f32⟩
  | .hbm, ⟨68, _⟩ => ⟨S20000x200, .f32⟩
  | .hbm, ⟨69, _⟩ => ⟨S_, .f32⟩
  | .hbm, ⟨70, _⟩ => ⟨S20000x200, .f32⟩
  | .hbm, ⟨71, _⟩ => ⟨S20000x200, .i1⟩
  | .hbm, ⟨72, _⟩ => ⟨S_, .f32⟩
  | .hbm, ⟨73, _⟩ => ⟨S20000x200, .f32⟩
  | .hbm, ⟨74, _⟩ => ⟨S20000x200, .f32⟩
  | .hbm, ⟨75, _⟩ => ⟨S20000x200, .f32⟩
  | .hbm, ⟨76, _⟩ => ⟨S_, .i32⟩
  | .hbm, ⟨77, _⟩ => ⟨S400000, .i32⟩
  | .hbm, ⟨78, _⟩ => ⟨S400000, .i1⟩
  | .hbm, ⟨79, _⟩ => ⟨S_, .i32⟩
  | .hbm, ⟨80, _⟩ => ⟨S400000, .i32⟩
  | .hbm, ⟨81, _⟩ => ⟨S400000, .i32⟩
  | .hbm, ⟨82, _⟩ => ⟨S400000, .i32⟩
  | .hbm, ⟨83, _⟩ => ⟨S400000x1, .i32⟩
  | .hbm, ⟨84, _⟩ => ⟨S400000x200, .f32⟩
  | .hbm, ⟨85, _⟩ => ⟨S_, .i32⟩
  | .hbm, ⟨86, _⟩ => ⟨S400000, .i32⟩
  | .hbm, ⟨87, _⟩ => ⟨S400000, .i1⟩
  | .hbm, ⟨88, _⟩ => ⟨S_, .i32⟩
  | .hbm, ⟨89, _⟩ => ⟨S400000, .i32⟩
  | .hbm, ⟨90, _⟩ => ⟨S400000, .i32⟩
  | .hbm, ⟨91, _⟩ => ⟨S400000, .i32⟩
  | .hbm, ⟨92, _⟩ => ⟨S400000x1, .i32⟩
  | .hbm, ⟨93, _⟩ => ⟨S400000x200, .f32⟩
  | .hbm, ⟨94, _⟩ => ⟨S400000x200, .f32⟩
  | .hbm, ⟨95, _⟩ => ⟨S400000x200, .f32⟩
  | .hbm, ⟨96, _⟩ => ⟨S_, .f32⟩
  | .hbm, ⟨97, _⟩ => ⟨S20000x200, .f32⟩
  | .hbm, ⟨98, _⟩ => ⟨S400000x1, .i32⟩
  | .hbm, ⟨99, _⟩ => ⟨S20000x200, .f32⟩
  | .hbm, ⟨100, _⟩ => ⟨S20000x200, .f32⟩
  | .hbm, ⟨101, _⟩ => ⟨S20000x200, .f32⟩
  | .hbm, ⟨102, _⟩ => ⟨S20000x200, .f32⟩
  | .hbm, ⟨103, _⟩ => ⟨S20000x200, .f32⟩
  | .hbm, ⟨104, _⟩ => ⟨S20000x200, .i1⟩
  | .hbm, ⟨105, _⟩ => ⟨S20000x200, .f32⟩
  | .hbm, ⟨106, _⟩ => ⟨S20000x200, .f32⟩
  | .hbm, ⟨107, _⟩ => ⟨S_, .f32⟩
  | .hbm, ⟨108, _⟩ => ⟨S20000x200, .f32⟩
  | .hbm, ⟨109, _⟩ => ⟨S20000x200, .i1⟩
  | .hbm, ⟨110, _⟩ => ⟨S_, .f32⟩
  | .hbm, ⟨111, _⟩ => ⟨S20000x200, .f32⟩
  | .hbm, ⟨112, _⟩ => ⟨S20000x200, .f32⟩
  | .hbm, ⟨113, _⟩ => ⟨S20000x200, .f32⟩
  | _, _ => ⟨S20000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_c_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call0_v0 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_cst_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_12 : Ref sig .tc := ⟨.hbm, 76, rfl⟩
abbrev main_v49 : Ref sig .tc := ⟨.hbm, 77, rfl⟩
abbrev main_v50 : Ref sig .tc := ⟨.hbm, 78, rfl⟩
abbrev main_c_13 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_14 : Ref sig .tc := ⟨.hbm, 85, rfl⟩
abbrev main_v56 : Ref sig .tc := ⟨.hbm, 86, rfl⟩
abbrev main_v57 : Ref sig .tc := ⟨.hbm, 87, rfl⟩
abbrev main_c_15 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_16 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call2_v0 : Ref sig .tc := ⟨.hbm, 104, rfl⟩
abbrev main_v72 : Ref sig .tc := ⟨.hbm, 105, rfl⟩
abbrev main_v73 : Ref sig .tc := ⟨.hbm, 106, rfl⟩
abbrev main_cst_17 : Ref sig .tc := ⟨.hbm, 107, rfl⟩
abbrev main_v74 : Ref sig .tc := ⟨.hbm, 108, rfl⟩
abbrev main_v75 : Ref sig .tc := ⟨.hbm, 109, rfl⟩
abbrev main_cst_18 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩

abbrev nD : Nat := 1
abbrev τ : Topo := Topo.v7x

variable {F : FTy → Type} [FloatOps F]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S20000x200 : S_.BroadcastsInDim S20000x200 (![] : Fin 0 → Fin S20000x200.rank)
  bcast_S20000x1_S20000x200_0_1 : S20000x1.BroadcastsInDim S20000x200 (![0, 1] : Fin 2 → Fin S20000x200.rank)
  gather_S20000x200_S20000x1_S20000x200_1_0_n_n_0_1_1200_wf : GatherDims.WF S20000x200 S20000x1 S20000x200 [1] [0] [] [0] [] 1 ![1, 200]
  scatter_S20000_S400000x1_S400000_n_0_0_1_wf : ScatterDims.WF S20000 S400000x1 S400000 [] [0] [0] 1
  gather_S20000x200_S400000x1_S400000x200_1_0_n_n_0_1_1200_wf : GatherDims.WF S20000x200 S400000x1 S400000x200 [1] [0] [] [0] [] 1 ![1, 200]
  gather_S460x200_S400000x1_S400000x200_1_0_n_n_0_1_1200_wf : GatherDims.WF S460x200 S400000x1 S400000x200 [1] [0] [] [0] [] 1 ![1, 200]
  dot_S400000x200_S200x200_S400000x200_1_0_0_1_n_n_wf : DotDims.WF S400000x200 S200x200 S400000x200 [1] [0] [0] [1] [] []
  scatter_S20000x200_S400000x1_S400000x200_1_0_0_1_wf : ScatterDims.WF S20000x200 S400000x1 S400000x200 [1] [0] [0] 1
  dot_S20000x200_S200x200_S20000x200_1_0_0_1_n_n_wf : DotDims.WF S20000x200 S200x200 S20000x200 [1] [0] [0] [1] [] []

variable [Facts₀]

def gather_S20000x200_S20000x1_S20000x200_1_0_n_n_0_1_1200 : GatherDims S20000x200 S20000x1 S20000x200 where
  offsetDims := [1]
  collapsedSliceDims := [0]
  operandBatchingDims := []
  startIndicesBatchingDims := []
  startIndexMap := [0]
  indexVectorDim := 1
  sliceSizes := ![1, 200]
  wf := gather_S20000x200_S20000x1_S20000x200_1_0_n_n_0_1_1200_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf
def gather_S20000x200_S400000x1_S400000x200_1_0_n_n_0_1_1200 : GatherDims S20000x200 S400000x1 S400000x200 where
  offsetDims := [1]
  collapsedSliceDims := [0]
  operandBatchingDims := []
  startIndicesBatchingDims := []
  startIndexMap := [0]
  indexVectorDim := 1
  sliceSizes := ![1, 200]
  wf := gather_S20000x200_S400000x1_S400000x200_1_0_n_n_0_1_1200_wf
def gather_S460x200_S400000x1_S400000x200_1_0_n_n_0_1_1200 : GatherDims S460x200 S400000x1 S400000x200 where
  offsetDims := [1]
  collapsedSliceDims := [0]
  operandBatchingDims := []
  startIndicesBatchingDims := []
  startIndexMap := [0]
  indexVectorDim := 1
  sliceSizes := ![1, 200]
  wf := gather_S460x200_S400000x1_S400000x200_1_0_n_n_0_1_1200_wf
def dot_S400000x200_S200x200_S400000x200_1_0_0_1_n_n : DotDims S400000x200 S200x200 S400000x200 where
  lhsContracting := [1]
  rhsContracting := [0]
  lhsNonContracting := [0]
  rhsNonContracting := [1]
  lhsBatch := []
  rhsBatch := []
  wf := dot_S400000x200_S200x200_S400000x200_1_0_0_1_n_n_wf
def scatter_S20000x200_S400000x1_S400000x200_1_0_0_1 : ScatterDims S20000x200 S400000x1 S400000x200 where
  updateWindowDims := [1]
  insertedWindowDims := [0]
  scatterDimsToOperandDims := [0]
  indexVectorDim := 1
  wf := scatter_S20000x200_S400000x1_S400000x200_1_0_0_1_wf
def dot_S20000x200_S200x200_S20000x200_1_0_0_1_n_n : DotDims S20000x200 S200x200 S20000x200 where
  lhsContracting := [1]
  rhsContracting := [0]
  lhsNonContracting := [0]
  rhsNonContracting := [1]
  lhsBatch := []
  rhsBatch := []
  wf := dot_S20000x200_S200x200_S20000x200_1_0_0_1_n_n_wf

class Facts : Prop extends Facts₀ where

variable [Facts]
-- ==== Proof.Ranges.lean ====
/-
  The statement's precondition, decoded: the index ranges.

  The printed precondition is a chain of conjunctions (`and` on `i1` scalars). Its last three conjuncts are
  `all (0 ≤ x ∧ x < N)` over the three index arrays: a reduction by `and`, from the constant 1, of the elementwise
  conjunction of two signed comparisons against a broadcast scalar constant. If the whole chain is 1, each of these
  reductions is 1, so every element of each elementwise conjunction is 1, and an element is the conjunction of the two
  comparisons of the array's word with the constants themselves.
-/
import proofs.«413961_j50276887167213_1_alg».proof.Pre_finite_inputs
import Idealize.ShloMosaic.Lib.ReduceAll

namespace Cert.PreDecode

open Idealize.ShloMosaic Cert.Pre_finite_inputs

/-- The scalar shape has exactly one index (the empty tuple). -/
instance subsingleton_scalar_idx : Subsingleton S_.Idx := ⟨fun _ _ => funext fun d => d.elim0⟩

/-- One element of `(x ≥ lo) ∧ (x < hi)`, the bounds broadcast scalars: the broadcast of a constant reads the constant at
    every index, and the elementwise operations act on the words at that index. -/
theorem elem_range {s : Shape} (x : IVec s 32) (lo hi : BitVec 32) (hb : S_.BroadcastsInDim s (![] : Fin 0 → Fin s.rank)) (j : s.Idx)
    (e : andi (cmpi .sge x (broadcastInDim s ![] hb (constantI S_ 32 lo)))
          (cmpi .slt x (broadcastInDim s ![] hb (constantI S_ 32 hi))) j = 1#1) :
    IntOp.cmpi .sge (x j) lo = 1#1 ∧ IntOp.cmpi .slt (x j) hi = 1#1 :=
  IntOp.andi_eq_one.1 e

variable [Facts] {F : FTy → Type} [FloatOps F]

/-- The tail of the chain: `p ∧ all q ∧ all (0 ≤ arg11 < 460)` is 1 only if `p` is 1, every element of `q` is 1 and
    every word of `arg11` is in range. -/
theorem part3 (a11 : IVec S400000 32) (p : IVec S_ 1) (q : IVec S400000 1) (j0 : S_.Idx)
    (e : fn_part3 (F := F) a11 p q j0 = 1#1) :
    (p j0 = 1#1 ∧ ∀ j, q j = 1#1)
      ∧ ∀ j, IntOp.cmpi .sge (a11 j) 0#32 = 1#1 ∧ IntOp.cmpi .slt (a11 j) 460#32 = 1#1 := by
  obtain ⟨e1, e2⟩ := IntOp.andi_eq_one.1 e
  obtain ⟨e3, e4⟩ := IntOp.andi_eq_one.1 e1
  exact ⟨⟨e3, Host.reduce_andi_all _ _ _ _ j0 e4⟩,
    fun j => elem_range a11 0#32 460#32 _ j (Host.reduce_andi_all _ _ _ _ j0 e2 j)⟩

/-- The middle of the chain: whatever the conjunct `p` carried in, the chain being 1 puts `arg8`, `arg9` and `arg11` in
    range. -/
theorem part2 (a7 : FVec F S200x200 .f32) (a8 : IVec S20000 32) (a9 a11 : IVec S400000 32) (p : IVec S_ 1) (j0 : S_.Idx)
    (e : fn_part2 (F := F) a7 a8 a9 a11 p j0 = 1#1) :
    (∀ j, IntOp.cmpi .sge (a8 j) 0#32 = 1#1 ∧ IntOp.cmpi .slt (a8 j) 20000#32 = 1#1)
      ∧ (∀ j, IntOp.cmpi .sge (a9 j) 0#32 = 1#1 ∧ IntOp.cmpi .slt (a9 j) 20000#32 = 1#1)
      ∧ (∀ j, IntOp.cmpi .sge (a11 j) 0#32 = 1#1 ∧ IntOp.cmpi .slt (a11 j) 460#32 = 1#1) := by
  have e' : fn_part3 (F := F) a11 _ _ j0 = 1#1 := e
  obtain ⟨⟨h45, h50⟩, h11⟩ := part3 a11 _ _ j0 e'
  have h44 := (IntOp.andi_eq_one.1 h45).2
  exact ⟨fun j => elem_range a8 0#32 20000#32 _ j (Host.reduce_andi_all _ _ _ _ j0 h44 j),
    fun j => elem_range a9 0#32 20000#32 _ j (h50 j), h11⟩

/-- The precondition being true everywhere puts the three index arrays in range. -/
theorem ranges
    (a0 : FVec F S20000x200 .f32) (a1 : FVec F S460x200 .f32)
    (a2 a3 a4 a5 a6 a7 : FVec F S200x200 .f32)
    (a8 : IVec S20000 32) (a9 a10 a11 : IVec S400000 32)
    (h : fn (F := F) a0 a1 a2 a3 a4 a5 a6 a7 a8 a9 a10 a11 = fun _ => 1#1) :
    (∀ j, IntOp.cmpi .sge (a8 j) 0#32 = 1#1 ∧ IntOp.cmpi .slt (a8 j) 20000#32 = 1#1)
      ∧ (∀ j, IntOp.cmpi .sge (a9 j) 0#32 = 1#1 ∧ IntOp.cmpi .slt (a9 j) 20000#32 = 1#1)
      ∧ (∀ j, IntOp.cmpi .sge (a11 j) 0#32 = 1#1 ∧ IntOp.cmpi .slt (a11 j) 460#32 = 1#1) := by
  have e : fn_part2 (F := F) a7 a8 a9 a11 _ (fun d => d.elim0) = 1#1 := congrFun h (fun d => d.elim0)
  exact part2 a7 a8 a9 a11 _ _ e

end Cert.PreDecode
-- ==== Proof.Walk.lean ====
/- The buffer contents at the boundaries of @main's segments (the generated fold W0 … W12), walked back: a buffer that
  no operation of a host stretch writes, and that is not an output window of a region, holds after the segment what
  it held before it (an input window's array is left as entered). The facts below carry each operand of a region,
  and each operand of a host stretch, back to the boundary where it was written (to the launch memory, for an argument).
-/
import proofs.«413961_j50276887167213_1_alg».proof.Proof.Gen.KernelIdeal.Frame
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- Closes "no operation of this literal stretch writes the buffer": each operation writes one buffer, another one. -/
macro "keeps" : tactic => `(tactic| (
  refine List.forall_iff_forall_mem.mp ?_
  simp only [hostOps0, hostOps0_1, hostOps0_2, hostOps0_3, hostOps1, hostOps2, hostOps2_1, hostOps3,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## One step across each host stretch -/
theorem h1 (c : Dev nD) (b : Ref sig .tc) (hb : ∀ op ∈ (hostOps0 : List (HloOp τ sig (Elt F))), Proc.devRef .tc b ∉ op.writes) :
    W1 m ρ c (Proc.devRef .tc b) = W0 m ρ c (Proc.devRef .tc b) := StableHlo.after_of_forall_not_mem _ _ hb
theorem h2 (c : Dev nD) (b : Ref sig .tc) (hb : ∀ op ∈ (hostOps0_1 : List (HloOp τ sig (Elt F))), Proc.devRef .tc b ∉ op.writes) :
    W2 m ρ c (Proc.devRef .tc b) = W1 m ρ c (Proc.devRef .tc b) := StableHlo.after_of_forall_not_mem _ _ hb
theorem h3 (c : Dev nD) (b : Ref sig .tc) (hb : ∀ op ∈ (hostOps0_2 : List (HloOp τ sig (Elt F))), Proc.devRef .tc b ∉ op.writes) :
    W3 m ρ c (Proc.devRef .tc b) = W2 m ρ c (Proc.devRef .tc b) := StableHlo.after_of_forall_not_mem _ _ hb
theorem h4 (c : Dev nD) (b : Ref sig .tc) (hb : ∀ op ∈ (hostOps0_3 : List (HloOp τ sig (Elt F))), Proc.devRef .tc b ∉ op.writes) :
    W4 m ρ c (Proc.devRef .tc b) = W3 m ρ c (Proc.devRef .tc b) := StableHlo.after_of_forall_not_mem _ _ hb
theorem h6 (c : Dev nD) (b : Ref sig .tc) (hb : ∀ op ∈ (hostOps1 : List (HloOp τ sig (Elt F))), Proc.devRef .tc b ∉ op.writes) :
    W6 m ρ c (Proc.devRef .tc b) = W5 m ρ c (Proc.devRef .tc b) := StableHlo.after_of_forall_not_mem _ _ hb
theorem h8 (c : Dev nD) (b : Ref sig .tc) (hb : ∀ op ∈ (hostOps2 : List (HloOp τ sig (Elt F))), Proc.devRef .tc b ∉ op.writes) :
    W8 m ρ c (Proc.devRef .tc b) = W7 m ρ c (Proc.devRef .tc b) := StableHlo.after_of_forall_not_mem _ _ hb
theorem h9 (c : Dev nD) (b : Ref sig .tc) (hb : ∀ op ∈ (hostOps2_1 : List (HloOp τ sig (Elt F))), Proc.devRef .tc b ∉ op.writes) :
    W9 m ρ c (Proc.devRef .tc b) = W8 m ρ c (Proc.devRef .tc b) := StableHlo.after_of_forall_not_mem _ _ hb
theorem h11 (c : Dev nD) (b : Ref sig .tc) (hb : ∀ op ∈ (hostOps3 : List (HloOp τ sig (Elt F))), Proc.devRef .tc b ∉ op.writes) :
    W11 m ρ c (Proc.devRef .tc b) = W10 m ρ c (Proc.devRef .tc b) := StableHlo.after_of_forall_not_mem _ _ hb

/-! ## The arguments at the boundaries where they are read -/
theorem W4_main_arg2 (c : Dev nD) : W4 m ρ c (Proc.devRef .tc main_arg2) = m ((c : Thread nD τ).loc main_arg2) :=
  ((h4 m ρ c main_arg2 (by keeps)).trans ((h3 m ρ c main_arg2 (by keeps)).trans ((h2 m ρ c main_arg2 (by keeps)).trans (h1 m ρ c main_arg2 (by keeps))))).trans rfl
theorem W6_main_arg3 (c : Dev nD) : W6 m ρ c (Proc.devRef .tc main_arg3) = m ((c : Thread nD τ).loc main_arg3) :=
  ((h6 m ρ c main_arg3 (by keeps)).trans ((W5_of_ne m ρ c main_arg3 (by decide)).trans ((h4 m ρ c main_arg3 (by keeps)).trans ((h3 m ρ c main_arg3 (by keeps)).trans ((h2 m ρ c main_arg3 (by keeps)).trans (h1 m ρ c main_arg3 (by keeps))))))).trans rfl
theorem W6_main_arg4 (c : Dev nD) : W6 m ρ c (Proc.devRef .tc main_arg4) = m ((c : Thread nD τ).loc main_arg4) :=
  ((h6 m ρ c main_arg4 (by keeps)).trans ((W5_of_ne m ρ c main_arg4 (by decide)).trans ((h4 m ρ c main_arg4 (by keeps)).trans ((h3 m ρ c main_arg4 (by keeps)).trans ((h2 m ρ c main_arg4 (by keeps)).trans (h1 m ρ c main_arg4 (by keeps))))))).trans rfl
theorem W9_main_arg5 (c : Dev nD) : W9 m ρ c (Proc.devRef .tc main_arg5) = m ((c : Thread nD τ).loc main_arg5) :=
  ((h9 m ρ c main_arg5 (by keeps)).trans ((h8 m ρ c main_arg5 (by keeps)).trans ((W7_of_ne m ρ c main_arg5 (by decide)).trans ((h6 m ρ c main_arg5 (by keeps)).trans ((W5_of_ne m ρ c main_arg5 (by decide)).trans ((h4 m ρ c main_arg5 (by keeps)).trans ((h3 m ρ c main_arg5 (by keeps)).trans ((h2 m ρ c main_arg5 (by keeps)).trans (h1 m ρ c main_arg5 (by keeps)))))))))).trans rfl
theorem W11_main_arg6 (c : Dev nD) : W11 m ρ c (Proc.devRef .tc main_arg6) = m ((c : Thread nD τ).loc main_arg6) :=
  ((h11 m ρ c main_arg6 (by keeps)).trans ((W10_of_ne m ρ c main_arg6 (by decide)).trans ((h9 m ρ c main_arg6 (by keeps)).trans ((h8 m ρ c main_arg6 (by keeps)).trans ((W7_of_ne m ρ c main_arg6 (by decide)).trans ((h6 m ρ c main_arg6 (by keeps)).trans ((W5_of_ne m ρ c main_arg6 (by decide)).trans ((h4 m ρ c main_arg6 (by keeps)).trans ((h3 m ρ c main_arg6 (by keeps)).trans ((h2 m ρ c main_arg6 (by keeps)).trans (h1 m ρ c main_arg6 (by keeps)))))))))))).trans rfl
theorem W11_main_arg7 (c : Dev nD) : W11 m ρ c (Proc.devRef .tc main_arg7) = m ((c : Thread nD τ).loc main_arg7) :=
  ((h11 m ρ c main_arg7 (by keeps)).trans ((W10_of_ne m ρ c main_arg7 (by decide)).trans ((h9 m ρ c main_arg7 (by keeps)).trans ((h8 m ρ c main_arg7 (by keeps)).trans ((W7_of_ne m ρ c main_arg7 (by decide)).trans ((h6 m ρ c main_arg7 (by keeps)).trans ((W5_of_ne m ρ c main_arg7 (by decide)).trans ((h4 m ρ c main_arg7 (by keeps)).trans ((h3 m ρ c main_arg7 (by keeps)).trans ((h2 m ρ c main_arg7 (by keeps)).trans (h1 m ρ c main_arg7 (by keeps)))))))))))).trans rfl
theorem W1_main_arg10 (c : Dev nD) : W1 m ρ c (Proc.devRef .tc main_arg10) = m ((c : Thread nD τ).loc main_arg10) :=
  (h1 m ρ c main_arg10 (by keeps)).trans rfl
theorem W5_main_arg10 (c : Dev nD) : W5 m ρ c (Proc.devRef .tc main_arg10) = m ((c : Thread nD τ).loc main_arg10) :=
  ((W5_of_ne m ρ c main_arg10 (by decide)).trans ((h4 m ρ c main_arg10 (by keeps)).trans ((h3 m ρ c main_arg10 (by keeps)).trans ((h2 m ρ c main_arg10 (by keeps)).trans (h1 m ρ c main_arg10 (by keeps)))))).trans rfl
theorem W10_main_arg10 (c : Dev nD) : W10 m ρ c (Proc.devRef .tc main_arg10) = m ((c : Thread nD τ).loc main_arg10) :=
  ((W10_of_ne m ρ c main_arg10 (by decide)).trans ((h9 m ρ c main_arg10 (by keeps)).trans ((h8 m ρ c main_arg10 (by keeps)).trans ((W7_of_ne m ρ c main_arg10 (by decide)).trans ((h6 m ρ c main_arg10 (by keeps)).trans ((W5_of_ne m ρ c main_arg10 (by decide)).trans ((h4 m ρ c main_arg10 (by keeps)).trans ((h3 m ρ c main_arg10 (by keeps)).trans ((h2 m ρ c main_arg10 (by keeps)).trans (h1 m ρ c main_arg10 (by keeps))))))))))).trans rfl
theorem W2_main_arg9 (c : Dev nD) : W2 m ρ c (Proc.devRef .tc main_arg9) = m ((c : Thread nD τ).loc main_arg9) :=
  ((h2 m ρ c main_arg9 (by keeps)).trans (h1 m ρ c main_arg9 (by keeps))).trans rfl
theorem W7_main_arg9 (c : Dev nD) : W7 m ρ c (Proc.devRef .tc main_arg9) = m ((c : Thread nD τ).loc main_arg9) :=
  ((W7_of_ne m ρ c main_arg9 (by decide)).trans ((h6 m ρ c main_arg9 (by keeps)).trans ((W5_of_ne m ρ c main_arg9 (by decide)).trans ((h4 m ρ c main_arg9 (by keeps)).trans ((h3 m ρ c main_arg9 (by keeps)).trans ((h2 m ρ c main_arg9 (by keeps)).trans (h1 m ρ c main_arg9 (by keeps)))))))).trans rfl
theorem W3_main_arg1 (c : Dev nD) : W3 m ρ c (Proc.devRef .tc main_arg1) = m ((c : Thread nD τ).loc main_arg1) :=
  ((h3 m ρ c main_arg1 (by keeps)).trans ((h2 m ρ c main_arg1 (by keeps)).trans (h1 m ρ c main_arg1 (by keeps)))).trans rfl
theorem W8_main_arg1 (c : Dev nD) : W8 m ρ c (Proc.devRef .tc main_arg1) = m ((c : Thread nD τ).loc main_arg1) :=
  ((h8 m ρ c main_arg1 (by keeps)).trans ((W7_of_ne m ρ c main_arg1 (by decide)).trans ((h6 m ρ c main_arg1 (by keeps)).trans ((W5_of_ne m ρ c main_arg1 (by decide)).trans ((h4 m ρ c main_arg1 (by keeps)).trans ((h3 m ρ c main_arg1 (by keeps)).trans ((h2 m ρ c main_arg1 (by keeps)).trans (h1 m ρ c main_arg1 (by keeps))))))))).trans rfl
theorem W3_main_arg11 (c : Dev nD) : W3 m ρ c (Proc.devRef .tc main_arg11) = m ((c : Thread nD τ).loc main_arg11) :=
  ((h3 m ρ c main_arg11 (by keeps)).trans ((h2 m ρ c main_arg11 (by keeps)).trans (h1 m ρ c main_arg11 (by keeps)))).trans rfl
theorem W8_main_arg11 (c : Dev nD) : W8 m ρ c (Proc.devRef .tc main_arg11) = m ((c : Thread nD τ).loc main_arg11) :=
  ((h8 m ρ c main_arg11 (by keeps)).trans ((W7_of_ne m ρ c main_arg11 (by decide)).trans ((h6 m ρ c main_arg11 (by keeps)).trans ((W5_of_ne m ρ c main_arg11 (by decide)).trans ((h4 m ρ c main_arg11 (by keeps)).trans ((h3 m ρ c main_arg11 (by keeps)).trans ((h2 m ρ c main_arg11 (by keeps)).trans (h1 m ρ c main_arg11 (by keeps))))))))).trans rfl

/-! ## Intermediate buffers carried from where they are written to where they are read -/
theorem W2_main_v0 (c : Dev nD) : W2 m ρ c (Proc.devRef .tc main_v0) = W1 m ρ c (Proc.devRef .tc main_v0) :=
  h2 m ρ c main_v0 (by keeps)
theorem W4_main_v14 (c : Dev nD) : W4 m ρ c (Proc.devRef .tc main_v14) = W3 m ρ c (Proc.devRef .tc main_v14) :=
  h4 m ρ c main_v14 (by keeps)
theorem W6_main_v0 (c : Dev nD) : W6 m ρ c (Proc.devRef .tc main_v0) = W1 m ρ c (Proc.devRef .tc main_v0) :=
  (h6 m ρ c main_v0 (by keeps)).trans ((W5_of_ne m ρ c main_v0 (by decide)).trans ((h4 m ρ c main_v0 (by keeps)).trans ((h3 m ρ c main_v0 (by keeps)).trans (h2 m ρ c main_v0 (by keeps)))))
theorem W6_main_v9 (c : Dev nD) : W6 m ρ c (Proc.devRef .tc main_v9) = W2 m ρ c (Proc.devRef .tc main_v9) :=
  (h6 m ρ c main_v9 (by keeps)).trans ((W5_of_ne m ρ c main_v9 (by decide)).trans ((h4 m ρ c main_v9 (by keeps)).trans (h3 m ρ c main_v9 (by keeps))))
theorem W6_main_v13 (c : Dev nD) : W6 m ρ c (Proc.devRef .tc main_v13) = W2 m ρ c (Proc.devRef .tc main_v13) :=
  (h6 m ρ c main_v13 (by keeps)).trans ((W5_of_ne m ρ c main_v13 (by decide)).trans ((h4 m ρ c main_v13 (by keeps)).trans (h3 m ρ c main_v13 (by keeps))))
theorem W9_main_v21 (c : Dev nD) : W9 m ρ c (Proc.devRef .tc main_v21) = W8 m ρ c (Proc.devRef .tc main_v21) :=
  h9 m ρ c main_v21 (by keeps)
theorem W11_main_v20 (c : Dev nD) : W11 m ρ c (Proc.devRef .tc main_v20) = W7 m ρ c (Proc.devRef .tc main_v20) :=
  (h11 m ρ c main_v20 (by keeps)).trans ((W10_of_ne m ρ c main_v20 (by decide)).trans ((h9 m ρ c main_v20 (by keeps)).trans (h8 m ρ c main_v20 (by keeps))))
theorem W11_main_v9 (c : Dev nD) : W11 m ρ c (Proc.devRef .tc main_v9) = W2 m ρ c (Proc.devRef .tc main_v9) :=
  (h11 m ρ c main_v9 (by keeps)).trans ((W10_of_ne m ρ c main_v9 (by decide)).trans ((h9 m ρ c main_v9 (by keeps)).trans ((h8 m ρ c main_v9 (by keeps)).trans (((W7_arr m ρ c 2).trans (((dat1 (V6 m ρ) c).arrAt_in 2 rfl _).trans (A_eq1 (V6 m ρ) c 2))).trans ((h6 m ρ c main_v9 (by keeps)).trans ((W5_of_ne m ρ c main_v9 (by decide)).trans ((h4 m ρ c main_v9 (by keeps)).trans (h3 m ρ c main_v9 (by keeps)))))))))
theorem W11_main_v13 (c : Dev nD) : W11 m ρ c (Proc.devRef .tc main_v13) = W2 m ρ c (Proc.devRef .tc main_v13) :=
  (h11 m ρ c main_v13 (by keeps)).trans ((W10_of_ne m ρ c main_v13 (by decide)).trans ((h9 m ρ c main_v13 (by keeps)).trans ((h8 m ρ c main_v13 (by keeps)).trans (((W7_arr m ρ c 3).trans (((dat1 (V6 m ρ) c).arrAt_in 3 rfl _).trans (A_eq1 (V6 m ρ) c 3))).trans ((h6 m ρ c main_v13 (by keeps)).trans ((W5_of_ne m ρ c main_v13 (by decide)).trans ((h4 m ρ c main_v13 (by keeps)).trans (h3 m ρ c main_v13 (by keeps)))))))))

end Cert.KernelIdeal.Walk

end
-- ==== Proof.TakeRows.lean ====
/-
  The kernel program's row gathers (out-of-range rows filled with a NaN word) read off its host stretches.

  Each gather first wraps a negative index once (idx < 0 ↦ idx + N), lays the wrapped indices out as one
  column I, tests 0 ≤ I ≤ N - 1 elementwise, reduces the test by "and" over the size-one axis, gathers the
  rows at I, and keeps the gathered row where the test holds and a NaN word elsewhere. When every index is
  in range, 0 ≤ idx j < N as signed words, the wrap leaves the index, the test is 1 everywhere, and the
  select returns the gathered rows.
-/
import proofs.«413961_j50276887167213_1_alg».proof.Proof.Gen.KernelIdeal.Frame
import Idealize.ShloMosaic.Lib.StableHlo.Run
import Idealize.ShloMosaic.Lib.ReduceAll
import Idealize.ShloMosaic.Lib.StableHlo.Predicate

set_option maxRecDepth 16384

noncomputable section

/-! ## General facts: a select under an all-ones mask, an "and"-reduction of ones, a broadcast's elements -/

namespace Idealize.ShloMosaic

/-- A left fold by "and" from 1 over words that are all 1 is 1 (the converse of IntOp.foldl_andi_eq_one). -/
theorem IntOp.foldl_andi_of_ones {ι : Type} (f : ι → BitVec 1) :
    ∀ (l : List ι), (∀ n ∈ l, f n = 1#1) → l.foldl (fun r n => IntOp.andi r (f n)) 1#1 = 1#1
  | [], _ => rfl
  | a :: l, h => by
    have h1 : IntOp.andi (1#1 : BitVec 1) (f a) = 1#1 := by rw [h a (List.mem_cons_self ..)]; decide
    rw [List.foldl_cons, h1]
    exact IntOp.foldl_andi_of_ones f l fun n hn => h n (List.mem_cons_of_mem _ hn)

/-- A reduction by "and" from the initial word 1 over an operand that is 1 everywhere is 1 at every result index
    (the converse of Host.reduce_andi_eq_one). -/
theorem Host.reduce_andi_of_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact IntOp.foldl_andi_of_ones x _ fun i _ => hx i

/-- Every element of a broadcast is an element of its operand: what holds of all of the operand's elements holds of
    all of the broadcast's. -/
theorem broadcastInDim_forall {α : Type} {s t : Shape} {dims : Fin s.rank → Fin t.rank} {h : s.BroadcastsInDim t dims}
    {P : α → Prop} (x : s.Idx → α) (hx : ∀ k, P (x k)) (j : t.Idx) : P (broadcastInDim t dims h x j) := hx _

/-- A select whose mask is 1 everywhere is its first branch. -/
theorem select_of_ones {α : Type} {s : Shape} (m : IVec s 1) (a b : s.Idx → α) (hm : ∀ i, m i = 1#1) : select m a b = a := by
  funext i
  show Scalar.select (m i) (a i) (b i) = a i
  rw [hm i]; exact if_pos rfl

/-- The fill-mode test of a gather, in general: with a column I of indices that pass both bounds everywhere, the
    row mask (the test reduced by "and" from 1, then broadcast over the rows) is 1 everywhere, and the select of the
    gathered rows against any fill is the gathered rows. -/
theorem select_inbounds_eq {α : Type} {sc sr so u : Shape} {axes : List (Fin sc.rank)} (I lo hi : IVec sc 32)
    (hI : ∀ p, IntOp.cmpi .sge (I p) (lo p) = 1#1 ∧ IntOp.cmpi .sle (I p) (hi p) = 1#1)
    (init : u.Idx → BitVec 1) (hr : sc.ReducesTo axes sr) (hu : 0 < u.numel) (hinit : init (Shape.Idx.first hu) = 1#1)
    {dims : Fin sr.rank → Fin so.rank} (hb : sr.BroadcastsInDim so dims) (G fill : so.Idx → α) :
    select (broadcastInDim so dims hb (Host.reduce IntOp.andi (andi (cmpi .sge I lo) (cmpi .sle I hi)) init hr hu)) G fill = G := by
  refine select_of_ones _ _ _ fun i => ?_
  refine broadcastInDim_forall (P := fun w => w = 1#1) _ (fun k => ?_) i
  refine Host.reduce_andi_of_ones _ _ hr hu hinit (fun p => ?_) k
  show IntOp.andi (IntOp.cmpi .sge (I p) (lo p)) (IntOp.cmpi .sle (I p) (hi p)) = 1#1
  rw [(hI p).1, (hI p).2]; decide

/-! ## Words: an index in range is left by the wrap and passes both bounds -/

/-- A signed word with 0 ≤ a < N, N below 2³¹, is below N as a natural number. -/
theorem word_lt_of_in_range {a N : BitVec 32} (hN : N.toNat < 2 ^ 31) (h0 : IntOp.cmpi .sge a 0#32 = 1#1)
    (h1 : IntOp.cmpi .slt a N = 1#1) : a.toNat < N.toNat := by
  unfold IntOp.cmpi at h0 h1
  rw [StableHlo.Predicate.ofBool_eq_one_iff] at h0 h1
  simp only [BitVec.sle, BitVec.slt, decide_eq_true_eq, BitVec.toInt_eq_toNat_cond] at h0 h1
  have h00 : (0#32 : BitVec 32).toNat = 0 := rfl
  rw [h00] at h0
  split at h0 <;> split at h1 <;> split at h1 <;> omega

/-- The wrap of a negative index, one word: idx < 0 ↦ idx + N. -/
def wrapWord (N a : BitVec 32) : BitVec 32 := Scalar.select (IntOp.cmpi .slt a 0#32) (IntOp.addi a N) a

/-- A word in range is not wrapped, and passes the test 0 ≤ · ≤ M where M + 1 = N. -/
theorem wrapWord_in_range {a N M : BitVec 32} (hN : N.toNat < 2 ^ 31) (hM : M.toNat + 1 = N.toNat)
    (h0 : IntOp.cmpi .sge a 0#32 = 1#1) (h1 : IntOp.cmpi .slt a N = 1#1) :
    IntOp.cmpi .sge (wrapWord N a) 0#32 = 1#1 ∧ IntOp.cmpi .sle (wrapWord N a) M = 1#1 := by
  have ha := word_lt_of_in_range hN h0 h1
  have ha' : a.toNat < 2 ^ 31 := by omega
  have hz : (0#32 : BitVec 32).toNat < 2 ^ 31 := by decide
  have hneg : IntOp.cmpi .slt a 0#32 ≠ 1#1 := fun e => by
    have := (StableHlo.Predicate.slt_iff_toNat ha' hz).1 e
    exact Nat.not_lt_zero _ this
  have hw : wrapWord N a = a := if_neg hneg
  rw [hw]
  exact ⟨h0, (StableHlo.Predicate.sle_iff_toNat ha' (by omega)).2 (by omega)⟩

end Idealize.ShloMosaic

namespace Cert.KernelIdeal.TakeRows

open Cert.KernelIdeal Cert.KernelIdeal.Gen Idealize.ShloMosaic Idealize.ShloMosaic.TcCoe Idealize.SL.Sem Idealize.ShloMosaic.StableHlo

variable {F : FTy → Type} [FloatOps F]

/-- The index column the 20000-row gather reads: negative indices wrapped once (by 20000), then one column. -/
def colN (idx : IVec S20000 32) : IVec S20000x1 32 :=
  broadcastInDim S20000x1 ![0] bcast_S20000_S20000x1_0
    (select (cmpi .slt idx (broadcastInDim S20000 ![] bcast_S_S20000 (constantI S_ 32 0#32)))
      (addi idx (broadcastInDim S20000 ![] bcast_S_S20000 (constantI S_ 32 20000#32))) idx)

/-- The index column the 400000-row gathers read: negative indices wrapped once (by N), then one column. -/
def colE (N : BitVec 32) (idx : IVec S400000 32) : IVec S400000x1 32 :=
  broadcastInDim S400000x1 ![0] bcast_S400000_S400000x1_0
    (select (cmpi .slt idx (broadcastInDim S400000 ![] bcast_S_S400000 (constantI S_ 32 0#32)))
      (addi idx (broadcastInDim S400000 ![] bcast_S_S400000 (constantI S_ 32 N))) idx)

/-- Every element of the 20000-row column is the wrap of an index. -/
theorem colN_forall {P : BitVec 32 → Prop} (idx : IVec S20000 32) (hP : ∀ k, P (wrapWord 20000#32 (idx k))) (p : S20000x1.Idx) :
    P (colN idx p) :=
  broadcastInDim_forall (P := P) _ (fun k => hP k) p

/-- Every element of the 400000-row column is the wrap of an index. -/
theorem colE_forall {P : BitVec 32 → Prop} (N : BitVec 32) (idx : IVec S400000 32) (hP : ∀ k, P (wrapWord N (idx k)))
    (p : S400000x1.Idx) : P (colE N idx p) :=
  broadcastInDim_forall (P := P) _ (fun k => hP k) p

/-- The 20000-row gather under in-range indices: the fill-mode select is the gather. -/
theorem takeN_eq {α : Type} (x : S20000x200.Idx → α) (fill : S20000x200.Idx → α) (idx : IVec S20000 32)
    (h : ∀ j, IntOp.cmpi .sge (idx j) 0#32 = 1#1 ∧ IntOp.cmpi .slt (idx j) 20000#32 = 1#1) :
    select (broadcastInDim S20000x200 ![0] bcast_S20000_S20000x200_0
        (Host.reduce IntOp.andi
          (andi (cmpi .sge (colN idx) (broadcastInDim S20000x1 ![] bcast_S_S20000x1 (constantI S_ 32 0#32)))
            (cmpi .sle (colN idx) (broadcastInDim S20000x1 ![0, 1] bcast_S1x1_S20000x1_0_1
              (broadcastInDim S1x1 ![1] bcast_S1_S1x1_1 (constantI S1 32 19999#32)))))
          (constantI S_ 1 1#1) Facts₀.reducesTo_S20000x1_S20000_d1 Facts₀.h_S_))
      (Host.gather gather_S20000x200_S20000x1_S20000x200_1_0_n_n_0_1_1200 x (colN idx)) fill
      = Host.gather gather_S20000x200_S20000x1_S20000x200_1_0_n_n_0_1_1200 x (colN idx) :=
  select_inbounds_eq _ _ _
    (fun p => colN_forall (P := fun w => IntOp.cmpi .sge w 0#32 = 1#1 ∧ IntOp.cmpi .sle w 19999#32 = 1#1) idx
      (fun k => wrapWord_in_range (by decide) (by decide) (h k).1 (h k).2) p)
    _ _ _ rfl _ _ _

/-- The 400000-row gathers under in-range indices, for any source array and any row count N = M + 1 below 2³¹:
    the fill-mode select is the gather. -/
theorem takeE_eq {α : Type} {sx : Shape} (d : GatherDims sx S400000x1 S400000x200) (N M : BitVec 32) (hN : N.toNat < 2 ^ 31)
    (hM : M.toNat + 1 = N.toNat) (x : sx.Idx → α) (fill : S400000x200.Idx → α) (idx : IVec S400000 32)
    (h : ∀ j, IntOp.cmpi .sge (idx j) 0#32 = 1#1 ∧ IntOp.cmpi .slt (idx j) N = 1#1) :
    select (broadcastInDim S400000x200 ![0] bcast_S400000_S400000x200_0
        (Host.reduce IntOp.andi
          (andi (cmpi .sge (colE N idx) (broadcastInDim S400000x1 ![] bcast_S_S400000x1 (constantI S_ 32 0#32)))
            (cmpi .sle (colE N idx) (broadcastInDim S400000x1 ![0, 1] bcast_S1x1_S400000x1_0_1
              (broadcastInDim S1x1 ![1] bcast_S1_S1x1_1 (constantI S1 32 M)))))
          (constantI S_ 1 1#1) Facts₀.reducesTo_S400000x1_S400000_d1 Facts₀.h_S_))
      (Host.gather d x (colE N idx)) fill
      = Host.gather d x (colE N idx) :=
  select_inbounds_eq _ _ _
    (fun p => colE_forall (P := fun w => IntOp.cmpi .sge w 0#32 = 1#1 ∧ IntOp.cmpi .sle w M = 1#1) N idx
      (fun k => wrapWord_in_range hN hM (h k).1 (h k).2) p)
    _ _ _ rfl _ _ _

/-! ## The five host stretches -/

/-- Rows of main_arg0 at main_arg8, into main_v0. -/
theorem take_v0 (Y : Valuation τ sig (Elt F))
    (h : ∀ j, IntOp.cmpi .sge (Y (Proc.devRef .tc main_arg8) j) 0#32 = 1#1 ∧ IntOp.cmpi .slt (Y (Proc.devRef .tc main_arg8) j) 20000#32 = 1#1) :
    StableHlo.after hostOps0 Y (Proc.devRef .tc main_v0)
      = Host.gather gather_S20000x200_S20000x1_S20000x200_1_0_n_n_0_1_1200 (Y (Proc.devRef .tc main_arg0)) (colN (Y (Proc.devRef .tc main_arg8))) := by
  after_results_simp
  simp only [TRef.ofBuf, TRef.toBuf, cast_eq]
  exact takeN_eq _ _ _ h

/-- Rows of main_v0 at main_arg9, into main_v14. -/
theorem take_v14 (Y : Valuation τ sig (Elt F))
    (h : ∀ j, IntOp.cmpi .sge (Y (Proc.devRef .tc main_arg9) j) 0#32 = 1#1 ∧ IntOp.cmpi .slt (Y (Proc.devRef .tc main_arg9) j) 20000#32 = 1#1) :
    StableHlo.after hostOps0_2 Y (Proc.devRef .tc main_v14)
      = Host.gather gather_S20000x200_S400000x1_S400000x200_1_0_n_n_0_1_1200 (Y (Proc.devRef .tc main_v0)) (colE 20000#32 (Y (Proc.devRef .tc main_arg9))) := by
  after_results_simp
  simp only [TRef.ofBuf, TRef.toBuf, cast_eq]
  exact takeE_eq _ 20000#32 19999#32 (by decide) (by decide) _ _ _ h

/-- Rows of main_arg1 at main_arg11, into main_v15. -/
theorem take_v15 (Y : Valuation τ sig (Elt F))
    (h : ∀ j, IntOp.cmpi .sge (Y (Proc.devRef .tc main_arg11) j) 0#32 = 1#1 ∧ IntOp.cmpi .slt (Y (Proc.devRef .tc main_arg11) j) 460#32 = 1#1) :
    StableHlo.after hostOps0_3 Y (Proc.devRef .tc main_v15)
      = Host.gather gather_S460x200_S400000x1_S400000x200_1_0_n_n_0_1_1200 (Y (Proc.devRef .tc main_arg1)) (colE 460#32 (Y (Proc.devRef .tc main_arg11))) := by
  after_results_simp
  simp only [TRef.ofBuf, TRef.toBuf, cast_eq]
  exact takeE_eq _ 460#32 459#32 (by decide) (by decide) _ _ _ h

/-- Rows of main_v20 at main_arg9, into main_v21. -/
theorem take_v21 (Y : Valuation τ sig (Elt F))
    (h : ∀ j, IntOp.cmpi .sge (Y (Proc.devRef .tc main_arg9) j) 0#32 = 1#1 ∧ IntOp.cmpi .slt (Y (Proc.devRef .tc main_arg9) j) 20000#32 = 1#1) :
    StableHlo.after hostOps2 Y (Proc.devRef .tc main_v21)
      = Host.gather gather_S20000x200_S400000x1_S400000x200_1_0_n_n_0_1_1200 (Y (Proc.devRef .tc main_v20)) (colE 20000#32 (Y (Proc.devRef .tc main_arg9))) := by
  after_results_simp
  simp only [TRef.ofBuf, TRef.toBuf, cast_eq]
  exact takeE_eq _ 20000#32 19999#32 (by decide) (by decide) _ _ _ h

/-- Rows of main_arg1 at main_arg11, into main_v22. -/
theorem take_v22 (Y : Valuation τ sig (Elt F))
    (h : ∀ j, IntOp.cmpi .sge (Y (Proc.devRef .tc main_arg11) j) 0#32 = 1#1 ∧ IntOp.cmpi .slt (Y (Proc.devRef .tc main_arg11) j) 460#32 = 1#1) :
    StableHlo.after hostOps2_1 Y (Proc.devRef .tc main_v22)
      = Host.gather gather_S460x200_S400000x1_S400000x200_1_0_n_n_0_1_1200 (Y (Proc.devRef .tc main_arg1)) (colE 460#32 (Y (Proc.devRef .tc main_arg11))) := by
  after_results_simp
  simp only [TRef.ofBuf, TRef.toBuf, cast_eq]
  exact takeE_eq _ 460#32 459#32 (by decide) (by decide) _ _ _ h

end Cert.KernelIdeal.TakeRows
end
-- ==== Proof.Idx.lean ====
/-
  Index builders for the value proof. An element of an [n, 200] product `X · W` at index `i` sums, over `k < 200`,
  the left operand at (row of `i`, `k`) times the right at (`k`, column of `i`); a [n, 1] column is read at
  (row of `i`, 0). Stated for the edge arrays ([400000, 200]) and the node arrays ([20000, 200]).
-/
import proofs.«413961_j50276887167213_1_alg».proof.KernelIdeal

namespace Cert.KernelIdeal.Idx

open Cert.KernelIdeal Idealize.ShloMosaic

/-- (row of `i`, `k`) in an edge array. -/
abbrev lrowE (i : S400000x200.Idx) (k : Fin 200) : S400000x200.Idx := fun a => match a with
  | ⟨0, _⟩ => ⟨(i 0).val, (i 0).isLt⟩
  | ⟨1, _⟩ => ⟨k.val, k.isLt⟩
/-- (`k`, column of `i`) in a weight matrix, for an edge-array index `i`. -/
abbrev rcolE (i : S400000x200.Idx) (k : Fin 200) : S200x200.Idx := fun a => match a with
  | ⟨0, _⟩ => ⟨k.val, k.isLt⟩
  | ⟨1, _⟩ => ⟨(i 1).val, (i 1).isLt⟩
/-- (row of `i`, `k`) in a node array. -/
abbrev lrowN (i : S20000x200.Idx) (k : Fin 200) : S20000x200.Idx := fun a => match a with
  | ⟨0, _⟩ => ⟨(i 0).val, (i 0).isLt⟩
  | ⟨1, _⟩ => ⟨k.val, k.isLt⟩
/-- (`k`, column of `i`) in a weight matrix, for a node-array index `i`. -/
abbrev rcolN (i : S20000x200.Idx) (k : Fin 200) : S200x200.Idx := fun a => match a with
  | ⟨0, _⟩ => ⟨k.val, k.isLt⟩
  | ⟨1, _⟩ => ⟨(i 1).val, (i 1).isLt⟩
/-- (row of `i`, 0) in a per-node column. -/
abbrev col0N (i : S20000x200.Idx) : S20000x1.Idx := fun a => match a with
  | ⟨0, _⟩ => ⟨(i 0).val, (i 0).isLt⟩
  | ⟨1, _⟩ => ⟨0, Nat.one_pos⟩

end Cert.KernelIdeal.Idx
-- ==== Proof.MsgValue0.lean ====
/-
  Region 0, the message kernel: what the [400000, 200] result array holds after the region's 100 grid points.

  Point `t` takes rows `4000 t … 4000 t + 3999` of the two [400000, 200] edge arrays, adds them entry by entry, and
  multiplies that [4000, 200] block by the whole [200, 200] weight; the product is written back as rows
  `4000 t … 4000 t + 3999` of the result. So entry (r, c) of the result depends on row `r` of the two edge arrays and on
  column `c` of the weight only: it is `Σ_k (A (r, k) + B (r, k)) · W (k, c)`, the sum over the 200 contracted
  positions. The narrowing of both factors to the 16-bit format is the identity on the extended reals, and the
  accumulator the product is added into is the zero array.

  The steps: the product read at one entry of a block (`pay_apply`); where the blocks of the four windows sit in their
  arrays (`idx_facts`, `blkA`, `blkB`, `blkW`, `emb_out`); what one point writes back is its block of the one
  function `G` of the whole arrays (`flushed_eq`); row `r` lies in the block of point `r / 4000`, so the blocks fill
  the result array (`mem_blk`, `cover`); hence the array is `G` (`final0`).
-/
import proofs.«413961_j50276887167213_1_alg».proof.Proof.Gen.KernelIdeal.Frame
import proofs.«413961_j50276887167213_1_alg».proof.Proof.Idx
import Idealize.ShloMosaic.Lib.Pipeline.Value
import Idealize.ShloMosaic.Lib.ValueIdx
import Idealize.ShloMosaic.PureOps.Ideal.Laws

noncomputable section

namespace Cert.KernelIdeal.MsgValue0

open Cert.KernelIdeal Cert.KernelIdeal.Gen Cert.KernelIdeal.Idx
open Idealize.ShloMosaic Idealize.ShloMosaic.TcCoe Idealize.SL.Sem
open Idealize.ShloMosaic.Pipeline (Dat)

/-! ## The product at one entry of a block -/

/-- (row of `j`, `k`) in a [4000, 200] block. -/
abbrev browE (j : S4000x200.Idx) (k : Fin 200) : S4000x200.Idx := fun a => match a with
  | ⟨0, _⟩ => ⟨(j 0).val, (j 0).isLt⟩
  | ⟨1, _⟩ => ⟨k.val, k.isLt⟩
/-- (`k`, column of `j`) in the weight, for an entry `j` of a [4000, 200] block. -/
abbrev bcolE (j : S4000x200.Idx) (k : Fin 200) : S200x200.Idx := fun a => match a with
  | ⟨0, _⟩ => ⟨k.val, k.isLt⟩
  | ⟨1, _⟩ => ⟨(j 1).val, (j 1).isLt⟩

/-- The left factor of the product at entry `j` and contracted position `q` sits in row `j 0` … -/
theorem lhs_row (j : S4000x200.Idx) (q : dot_S4000x200_S200x200_S4000x200_1_0_0_1_n_n.contr.Idx) :
    (dot_S4000x200_S200x200_S4000x200_1_0_0_1_n_n.lhsIdx j q 0).val = (j 0).val := by
  unfold DotDims.lhsIdx
  rw [dif_neg (show ¬(0 : Fin S4000x200.rank) ∈ dot_S4000x200_S200x200_S4000x200_1_0_0_1_n_n.lhsBatch by decide), dif_pos (show (0 : Fin S4000x200.rank) ∈ dot_S4000x200_S200x200_S4000x200_1_0_0_1_n_n.lhsNonContracting by decide)]
  rfl
/-- … and column `q`; -/
theorem lhs_con (j : S4000x200.Idx) (q : dot_S4000x200_S200x200_S4000x200_1_0_0_1_n_n.contr.Idx) :
    (dot_S4000x200_S200x200_S4000x200_1_0_0_1_n_n.lhsIdx j q 1).val = (q ⟨0, by decide⟩).val :=
  dot_S4000x200_S200x200_S4000x200_1_0_0_1_n_n.lhsIdx_val_of_single rfl j q
/-- the right factor sits in row `q` … -/
theorem rhs_con (j : S4000x200.Idx) (q : dot_S4000x200_S200x200_S4000x200_1_0_0_1_n_n.contr.Idx) :
    (dot_S4000x200_S200x200_S4000x200_1_0_0_1_n_n.rhsIdx j q 0).val = (q ⟨0, by decide⟩).val :=
  dot_S4000x200_S200x200_S4000x200_1_0_0_1_n_n.rhsIdx_val_of_single rfl j q
/-- … and column `j 1`. -/
theorem rhs_col (j : S4000x200.Idx) (q : dot_S4000x200_S200x200_S4000x200_1_0_0_1_n_n.contr.Idx) :
    (dot_S4000x200_S200x200_S4000x200_1_0_0_1_n_n.rhsIdx j q 1).val = (j 1).val := by
  unfold DotDims.rhsIdx
  rw [dif_neg (show ¬(1 : Fin S200x200.rank) ∈ dot_S4000x200_S200x200_S4000x200_1_0_0_1_n_n.rhsBatch by decide), dif_pos (show (1 : Fin S200x200.rank) ∈ dot_S4000x200_S200x200_S4000x200_1_0_0_1_n_n.rhsNonContracting by decide)]
  rfl

/-- The body's value at entry `j` of its block: the sum over the 200 contracted positions of (the two left blocks
    added, at row `j 0`) times (the weight, at column `j 1`). The casts between equal shapes and the narrowing of the
    factors change nothing on the extended reals, and the accumulator is zero. -/
theorem pay_apply (x0 x1 : Vec Ideal S4000x200 .f32) (x2 : Vec Ideal S200x200 .f32) (j : S4000x200.Idx) :
    (k0_pay1 (F := Ideal) x0 x1 x2) j = ∑ k : Fin 200, (x0 (browE j k) + x1 (browE j k)) * x2 (bcolE j k) := by
  unfold k0_pay1
  simp only [shapeCast_self]
  refine (Ideal.matmul_constant_zero_apply dot_S4000x200_S200x200_S4000x200_1_0_0_1_n_n none _ _ j).trans ?_
  rw [← Equiv.sum_comp (ValueIdx.contrEquiv1 dot_S4000x200_S200x200_S4000x200_1_0_0_1_n_n 200 rfl rfl).symm]
  refine Finset.sum_congr rfl fun k _ => ?_
  have hk := ValueIdx.contrEquiv1_symm_val dot_S4000x200_S200x200_S4000x200_1_0_0_1_n_n 200 rfl rfl k
  have el : dot_S4000x200_S200x200_S4000x200_1_0_0_1_n_n.lhsIdx j ((ValueIdx.contrEquiv1 dot_S4000x200_S200x200_S4000x200_1_0_0_1_n_n 200 rfl rfl).symm k) = browE j k := funext fun a => Fin.ext (by
    match a with
    | ⟨0, _⟩ => exact lhs_row _ _
    | ⟨1, _⟩ => exact (lhs_con _ _).trans hk)
  have er : dot_S4000x200_S200x200_S4000x200_1_0_0_1_n_n.rhsIdx j ((ValueIdx.contrEquiv1 dot_S4000x200_S200x200_S4000x200_1_0_0_1_n_n 200 rfl rfl).symm k) = bcolE j k := funext fun a => Fin.ext (by
    match a with
    | ⟨0, _⟩ => exact (rhs_con _ _).trans hk
    | ⟨1, _⟩ => exact rhs_col _ _)
  rw [el, er]
  rfl

/-! ## Where the blocks sit -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: at point `t` the two left windows and the result window are at row block
    `t`, column block 0; the weight's window stays at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `y` of the first left window's block at point `t` is entry (4000 t + y 0, y 1) of its array. -/
theorem blkA (c : Dev nD) (t : Fin cfg0.N) (y : S4000x200.Idx) (i : S400000x200.Idx)
    (h0 : (i 0).val = t.val * 4000 + (y 0).val) (h1 : (i 1).val = (y 1).val) :
    (iblk0 V c 0 t : Vec Ideal S4000x200 .f32) y = (V c main_v14 : S400000x200.Idx → Elt Ideal .f32) i := by
  obtain ⟨e0, e1, -⟩ := idx_facts t
  unfold iblk0
  rw [View.read_apply]
  show V c main_v14 _ = V c main_v14 _
  congr 1
  funext a
  apply Fin.ext
  match a with
  | ⟨0, _⟩ => show win0_0.index t (0 : Fin 2) * 4000 + 1 * (y 0).val = (i 0).val; rw [e0, h0]; omega
  | ⟨1, _⟩ => show win0_0.index t (1 : Fin 2) * 200 + 1 * (y 1).val = (i 1).val; rw [e1, h1]; omega

/-- The same for the second left window. -/
theorem blkB (c : Dev nD) (t : Fin cfg0.N) (y : S4000x200.Idx) (i : S400000x200.Idx)
    (h0 : (i 0).val = t.val * 4000 + (y 0).val) (h1 : (i 1).val = (y 1).val) :
    (iblk0 V c 1 t : Vec Ideal S4000x200 .f32) y = (V c main_v15 : S400000x200.Idx → Elt Ideal .f32) i := by
  obtain ⟨-, -, e0, e1, -⟩ := idx_facts t
  unfold iblk0
  rw [View.read_apply]
  show V c main_v15 _ = V c main_v15 _
  congr 1
  funext a
  apply Fin.ext
  match a with
  | ⟨0, _⟩ => show win0_1.index t (0 : Fin 2) * 4000 + 1 * (y 0).val = (i 0).val; rw [e0, h0]; omega
  | ⟨1, _⟩ => show win0_1.index t (1 : Fin 2) * 200 + 1 * (y 1).val = (i 1).val; rw [e1, h1]; omega

/-- The weight's window holds the whole weight at every point. -/
theorem blkW (c : Dev nD) (t : Fin cfg0.N) (y : S200x200.Idx) (i : S200x200.Idx)
    (h0 : (i 0).val = (y 0).val) (h1 : (i 1).val = (y 1).val) :
    (iblk0 V c 2 t : Vec Ideal S200x200 .f32) y = (V c main_arg2 : S200x200.Idx → Elt Ideal .f32) i := by
  obtain ⟨-, -, -, -, e0, e1, -⟩ := idx_facts t
  unfold iblk0
  rw [View.read_apply]
  show V c main_arg2 _ = V c main_arg2 _
  congr 1
  funext a
  apply Fin.ext
  match a with
  | ⟨0, _⟩ => show win0_2.index t (0 : Fin 2) * 200 + 1 * (y 0).val = (i 0).val; rw [e0, h0]; omega
  | ⟨1, _⟩ => show win0_2.index t (1 : Fin 2) * 200 + 1 * (y 1).val = (i 1).val; rw [e1, h1]; omega

/-- Entry `j` of the result window's block at point `t` is entry (4000 t + j 0, j 1) of the result array. -/
theorem emb_out (t : Fin cfg0.N) (j : S4000x200.Idx) :
    ((((cfg0.win 3).blk t).view.emb j : S400000x200.Idx) 0).val = t.val * 4000 + (j 0).val
    ∧ ((((cfg0.win 3).blk t).view.emb j : S400000x200.Idx) 1).val = (j 1).val := by
  obtain ⟨-, -, -, -, -, -, e0, e1⟩ := idx_facts t
  constructor
  · show win0_3.index t (0 : Fin 2) * 4000 + 1 * (j 0).val = _; rw [e0]; omega
  · show win0_3.index t (1 : Fin 2) * 200 + 1 * (j 1).val = _; rw [e1]; omega

/-! ## What a point writes back -/

/-- The result as ONE function of the whole arrays: entry `i` is the sum over `k` of (the two edge arrays added, at
    (row of `i`, `k`)) times (the weight at (`k`, column of `i`)). -/
abbrev G (A B : (⟨S400000x200, .f32⟩ : BufTy).Contents (Elt Ideal)) (W : (⟨S200x200, .f32⟩ : BufTy).Contents (Elt Ideal)) :
    (⟨S400000x200, .f32⟩ : BufTy).Contents (Elt Ideal) :=
  fun i => ∑ k : Fin 200, (A (lrowE i k) + B (lrowE i k)) * W (rcolE i k)

/-- WHAT POINT `t` WRITES BACK is block `t` of `G` of the arrays as the region finds them: entry `j` of the block is
    the product at `j`, whose factors are rows of the left blocks and a column of the weight's block, and those are
    row `4000 t + j 0` of the edge arrays and column `j 1` of the weight. -/
theorem flushed_eq (c : Dev nD) (t : Fin cfg0.N) :
    (dat0 (F := Ideal) V c).flushed 3 t
      = ((cfg0.win 3).blk t).view.read (Elt Ideal) (G (V c main_v14) (V c main_v15) (V c main_arg2)) := by
  show (cfg0.win 3).cut (grid0.coords t) ((dat0 V c).after 3 t) = _
  rw [after0_3]
  unfold out0_3
  rw [View.canon_unit_zero hz]
  simp only [View.ld_unit_zero (S := S4000x200) hz, View.ld_unit_zero (S := S200x200) hz]
  funext j
  refine (pay_apply _ _ _ j).trans ?_
  obtain ⟨o0, o1⟩ := emb_out t j
  show _ = G (V c main_v14) (V c main_v15) (V c main_arg2) (((cfg0.win 3).blk t).view.emb j)
  refine Finset.sum_congr rfl fun k _ => ?_
  exact congrArg₂ (fun a b : Elt Ideal .f32 => a * b)
    (congrArg₂ (fun a b : Elt Ideal .f32 => a + b) (blkA V c t _ _ o0 rfl) (blkB V c t _ _ o0 rfl)) (blkW V c t _ _ rfl o1)

/-! ## The blocks fill the result array -/

/-- An index of the result array is in point `t`'s block iff each coordinate is in the block's range on its axis. -/
theorem mem_blk (t : Fin cfg0.N) (i : S400000x200.Idx) :
    i ∈ ((cfg0.win 3).blk t).view.set ↔ ∀ a : Fin 2, win0_3.index t a * S4000x200.size a ≤ (i a).val ∧ (i a).val < win0_3.index t a * S4000x200.size a + S4000x200.size a := by
  show i ∈ ((View.whole main_v16).slice (win0_3.rect t)).set ↔ _
  rw [View.set_slice_whole, Rect.mem_set_unit]
  exact Iff.rfl

/-- Row `r` of the result lies in the block of point `r / 4000`, and every point writes its block back. -/
theorem cover (i : S400000x200.Idx) :
    ∃ t : Fin cfg0.N, (cfg0.win 3).flush t = true ∧ i ∈ ((cfg0.win 3).blk t).view.set := by
  have hN : cfg0.N = 100 := N_0
  have hi0 : (i 0).val < 400000 := (i 0).isLt
  have hi1 : (i 1).val < 200 := (i 1).isLt
  refine ⟨⟨(i 0).val / 4000, by rw [hN]; omega⟩, flush0_3 _, ?_⟩
  rw [mem_blk]
  obtain ⟨-, -, -, -, -, -, e0, e1⟩ := idx_facts ⟨(i 0).val / 4000, by rw [hN]; omega⟩
  intro a
  match a with
  | ⟨0, _⟩ =>
    show win0_3.index _ (0 : Fin 2) * 4000 ≤ (i 0).val ∧ (i 0).val < win0_3.index _ (0 : Fin 2) * 4000 + 4000
    rw [e0]; show (i 0).val / 4000 * 4000 ≤ (i 0).val ∧ (i 0).val < (i 0).val / 4000 * 4000 + 4000; omega
  | ⟨1, _⟩ =>
    show win0_3.index _ (1 : Fin 2) * 200 ≤ (i 1).val ∧ (i 1).val < win0_3.index _ (1 : Fin 2) * 200 + 200
    rw [e1]; omega

/-! ## The result array -/

/-- THE RESULT ARRAY after the region: entry `i` is `Σ_k (A (row of i, k) + B (row of i, k)) · W (k, column of i)`, for
    `A`, `B`, `W` the two edge arrays and the weight as the region finds them. -/
theorem final0 (c : Dev nD)
    (A B : (⟨S400000x200, .f32⟩ : BufTy).Contents (Elt Ideal)) (W : (⟨S200x200, .f32⟩ : BufTy).Contents (Elt Ideal))
    (hA : V c main_v14 = A) (hB : V c main_v15 = B) (hW : V c main_arg2 = W) :
    (dat0 (F := Ideal) V c).arrAt 3 cfg0.N = fun i => ∑ k : Fin 200, (A (lrowE i k) + B (lrowE i k)) * W (rcolE i k) := by
  subst hA hB hW
  exact (dat0 (F := Ideal) V c).arrAt_eq_of_cover 3 (G (V c main_v14) (V c main_v15) (V c main_arg2))
    (fun t _ => flushed_eq V c t) cover

end Cert.KernelIdeal.MsgValue0

end
-- ==== Proof.MsgValue2.lean ====
/-
  Region 2, the message kernel: what the [400000, 200] result array holds after the region's 100 grid points.

  Point `t` takes rows `4000 t … 4000 t + 3999` of the two [400000, 200] edge arrays, adds them entry by entry, and
  multiplies that [4000, 200] block by the whole [200, 200] weight; the product is written back as rows
  `4000 t … 4000 t + 3999` of the result. So entry (r, c) of the result depends on row `r` of the two edge arrays and on
  column `c` of the weight only: it is `Σ_k (A (r, k) + B (r, k)) · W (k, c)`, the sum over the 200 contracted
  positions. The narrowing of both factors to the 16-bit format is the identity on the extended reals, and the
  accumulator the product is added into is the zero array.

  The steps: the product read at one entry of a block (`pay_apply`); where the blocks of the four windows sit in their
  arrays (`idx_facts`, `blkA`, `blkB`, `blkW`, `emb_out`); what one point writes back is its block of the one
  function `G` of the whole arrays (`flushed_eq`); row `r` lies in the block of point `r / 4000`, so the blocks fill
  the result array (`mem_blk`, `cover`); hence the array is `G` (`final2`).
-/
import proofs.«413961_j50276887167213_1_alg».proof.Proof.Gen.KernelIdeal.Frame
import proofs.«413961_j50276887167213_1_alg».proof.Proof.Idx
import Idealize.ShloMosaic.Lib.Pipeline.Value
import Idealize.ShloMosaic.Lib.ValueIdx
import Idealize.ShloMosaic.PureOps.Ideal.Laws

noncomputable section

namespace Cert.KernelIdeal.MsgValue2

open Cert.KernelIdeal Cert.KernelIdeal.Gen Cert.KernelIdeal.Idx
open Idealize.ShloMosaic Idealize.ShloMosaic.TcCoe Idealize.SL.Sem
open Idealize.ShloMosaic.Pipeline (Dat)

/-! ## The product at one entry of a block -/

/-- (row of `j`, `k`) in a [4000, 200] block. -/
abbrev browE (j : S4000x200.Idx) (k : Fin 200) : S4000x200.Idx := fun a => match a with
  | ⟨0, _⟩ => ⟨(j 0).val, (j 0).isLt⟩
  | ⟨1, _⟩ => ⟨k.val, k.isLt⟩
/-- (`k`, column of `j`) in the weight, for an entry `j` of a [4000, 200] block. -/
abbrev bcolE (j : S4000x200.Idx) (k : Fin 200) : S200x200.Idx := fun a => match a with
  | ⟨0, _⟩ => ⟨k.val, k.isLt⟩
  | ⟨1, _⟩ => ⟨(j 1).val, (j 1).isLt⟩

/-- The left factor of the product at entry `j` and contracted position `q` sits in row `j 0` … -/
theorem lhs_row (j : S4000x200.Idx) (q : dot_S4000x200_S200x200_S4000x200_1_0_0_1_n_n.contr.Idx) :
    (dot_S4000x200_S200x200_S4000x200_1_0_0_1_n_n.lhsIdx j q 0).val = (j 0).val := by
  unfold DotDims.lhsIdx
  rw [dif_neg (show ¬(0 : Fin S4000x200.rank) ∈ dot_S4000x200_S200x200_S4000x200_1_0_0_1_n_n.lhsBatch by decide), dif_pos (show (0 : Fin S4000x200.rank) ∈ dot_S4000x200_S200x200_S4000x200_1_0_0_1_n_n.lhsNonContracting by decide)]
  rfl
/-- … and column `q`; -/
theorem lhs_con (j : S4000x200.Idx) (q : dot_S4000x200_S200x200_S4000x200_1_0_0_1_n_n.contr.Idx) :
    (dot_S4000x200_S200x200_S4000x200_1_0_0_1_n_n.lhsIdx j q 1).val = (q ⟨0, by decide⟩).val :=
  dot_S4000x200_S200x200_S4000x200_1_0_0_1_n_n.lhsIdx_val_of_single rfl j q
/-- the right factor sits in row `q` … -/
theorem rhs_con (j : S4000x200.Idx) (q : dot_S4000x200_S200x200_S4000x200_1_0_0_1_n_n.contr.Idx) :
    (dot_S4000x200_S200x200_S4000x200_1_0_0_1_n_n.rhsIdx j q 0).val = (q ⟨0, by decide⟩).val :=
  dot_S4000x200_S200x200_S4000x200_1_0_0_1_n_n.rhsIdx_val_of_single rfl j q
/-- … and column `j 1`. -/
theorem rhs_col (j : S4000x200.Idx) (q : dot_S4000x200_S200x200_S4000x200_1_0_0_1_n_n.contr.Idx) :
    (dot_S4000x200_S200x200_S4000x200_1_0_0_1_n_n.rhsIdx j q 1).val = (j 1).val := by
  unfold DotDims.rhsIdx
  rw [dif_neg (show ¬(1 : Fin S200x200.rank) ∈ dot_S4000x200_S200x200_S4000x200_1_0_0_1_n_n.rhsBatch by decide), dif_pos (show (1 : Fin S200x200.rank) ∈ dot_S4000x200_S200x200_S4000x200_1_0_0_1_n_n.rhsNonContracting by decide)]
  rfl

/-- The body's value at entry `j` of its block: the sum over the 200 contracted positions of (the two left blocks
    added, at row `j 0`) times (the weight, at column `j 1`). The casts between equal shapes and the narrowing of the
    factors change nothing on the extended reals, and the accumulator is zero. -/
theorem pay_apply (x0 x1 : Vec Ideal S4000x200 .f32) (x2 : Vec Ideal S200x200 .f32) (j : S4000x200.Idx) :
    (k2_pay1 (F := Ideal) x0 x1 x2) j = ∑ k : Fin 200, (x0 (browE j k) + x1 (browE j k)) * x2 (bcolE j k) := by
  unfold k2_pay1
  simp only [shapeCast_self]
  refine (Ideal.matmul_constant_zero_apply dot_S4000x200_S200x200_S4000x200_1_0_0_1_n_n none _ _ j).trans ?_
  rw [← Equiv.sum_comp (ValueIdx.contrEquiv1 dot_S4000x200_S200x200_S4000x200_1_0_0_1_n_n 200 rfl rfl).symm]
  refine Finset.sum_congr rfl fun k _ => ?_
  have hk := ValueIdx.contrEquiv1_symm_val dot_S4000x200_S200x200_S4000x200_1_0_0_1_n_n 200 rfl rfl k
  have el : dot_S4000x200_S200x200_S4000x200_1_0_0_1_n_n.lhsIdx j ((ValueIdx.contrEquiv1 dot_S4000x200_S200x200_S4000x200_1_0_0_1_n_n 200 rfl rfl).symm k) = browE j k := funext fun a => Fin.ext (by
    match a with
    | ⟨0, _⟩ => exact lhs_row _ _
    | ⟨1, _⟩ => exact (lhs_con _ _).trans hk)
  have er : dot_S4000x200_S200x200_S4000x200_1_0_0_1_n_n.rhsIdx j ((ValueIdx.contrEquiv1 dot_S4000x200_S200x200_S4000x200_1_0_0_1_n_n 200 rfl rfl).symm k) = bcolE j k := funext fun a => Fin.ext (by
    match a with
    | ⟨0, _⟩ => exact (rhs_con _ _).trans hk
    | ⟨1, _⟩ => exact rhs_col _ _)
  rw [el, er]
  rfl

/-! ## Where the blocks sit -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: at point `t` the two left windows and the result window are at row block
    `t`, column block 0; the weight's window stays at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry `y` of the first left window's block at point `t` is entry (4000 t + y 0, y 1) of its array. -/
theorem blkA (c : Dev nD) (t : Fin cfg2.N) (y : S4000x200.Idx) (i : S400000x200.Idx)
    (h0 : (i 0).val = t.val * 4000 + (y 0).val) (h1 : (i 1).val = (y 1).val) :
    (iblk2 V c 0 t : Vec Ideal S4000x200 .f32) y = (V c main_v21 : S400000x200.Idx → Elt Ideal .f32) i := by
  obtain ⟨e0, e1, -⟩ := idx_facts t
  unfold iblk2
  rw [View.read_apply]
  show V c main_v21 _ = V c main_v21 _
  congr 1
  funext a
  apply Fin.ext
  match a with
  | ⟨0, _⟩ => show win2_0.index t (0 : Fin 2) * 4000 + 1 * (y 0).val = (i 0).val; rw [e0, h0]; omega
  | ⟨1, _⟩ => show win2_0.index t (1 : Fin 2) * 200 + 1 * (y 1).val = (i 1).val; rw [e1, h1]; omega

/-- The same for the second left window. -/
theorem blkB (c : Dev nD) (t : Fin cfg2.N) (y : S4000x200.Idx) (i : S400000x200.Idx)
    (h0 : (i 0).val = t.val * 4000 + (y 0).val) (h1 : (i 1).val = (y 1).val) :
    (iblk2 V c 1 t : Vec Ideal S4000x200 .f32) y = (V c main_v22 : S400000x200.Idx → Elt Ideal .f32) i := by
  obtain ⟨-, -, e0, e1, -⟩ := idx_facts t
  unfold iblk2
  rw [View.read_apply]
  show V c main_v22 _ = V c main_v22 _
  congr 1
  funext a
  apply Fin.ext
  match a with
  | ⟨0, _⟩ => show win2_1.index t (0 : Fin 2) * 4000 + 1 * (y 0).val = (i 0).val; rw [e0, h0]; omega
  | ⟨1, _⟩ => show win2_1.index t (1 : Fin 2) * 200 + 1 * (y 1).val = (i 1).val; rw [e1, h1]; omega

/-- The weight's window holds the whole weight at every point. -/
theorem blkW (c : Dev nD) (t : Fin cfg2.N) (y : S200x200.Idx) (i : S200x200.Idx)
    (h0 : (i 0).val = (y 0).val) (h1 : (i 1).val = (y 1).val) :
    (iblk2 V c 2 t : Vec Ideal S200x200 .f32) y = (V c main_arg5 : S200x200.Idx → Elt Ideal .f32) i := by
  obtain ⟨-, -, -, -, e0, e1, -⟩ := idx_facts t
  unfold iblk2
  rw [View.read_apply]
  show V c main_arg5 _ = V c main_arg5 _
  congr 1
  funext a
  apply Fin.ext
  match a with
  | ⟨0, _⟩ => show win2_2.index t (0 : Fin 2) * 200 + 1 * (y 0).val = (i 0).val; rw [e0, h0]; omega
  | ⟨1, _⟩ => show win2_2.index t (1 : Fin 2) * 200 + 1 * (y 1).val = (i 1).val; rw [e1, h1]; omega

/-- Entry `j` of the result window's block at point `t` is entry (4000 t + j 0, j 1) of the result array. -/
theorem emb_out (t : Fin cfg2.N) (j : S4000x200.Idx) :
    ((((cfg2.win 3).blk t).view.emb j : S400000x200.Idx) 0).val = t.val * 4000 + (j 0).val
    ∧ ((((cfg2.win 3).blk t).view.emb j : S400000x200.Idx) 1).val = (j 1).val := by
  obtain ⟨-, -, -, -, -, -, e0, e1⟩ := idx_facts t
  constructor
  · show win2_3.index t (0 : Fin 2) * 4000 + 1 * (j 0).val = _; rw [e0]; omega
  · show win2_3.index t (1 : Fin 2) * 200 + 1 * (j 1).val = _; rw [e1]; omega

/-! ## What a point writes back -/

/-- The result as ONE function of the whole arrays: entry `i` is the sum over `k` of (the two edge arrays added, at
    (row of `i`, `k`)) times (the weight at (`k`, column of `i`)). -/
abbrev G (A B : (⟨S400000x200, .f32⟩ : BufTy).Contents (Elt Ideal)) (W : (⟨S200x200, .f32⟩ : BufTy).Contents (Elt Ideal)) :
    (⟨S400000x200, .f32⟩ : BufTy).Contents (Elt Ideal) :=
  fun i => ∑ k : Fin 200, (A (lrowE i k) + B (lrowE i k)) * W (rcolE i k)

/-- WHAT POINT `t` WRITES BACK is block `t` of `G` of the arrays as the region finds them: entry `j` of the block is
    the product at `j`, whose factors are rows of the left blocks and a column of the weight's block, and those are
    row `4000 t + j 0` of the edge arrays and column `j 1` of the weight. -/
theorem flushed_eq (c : Dev nD) (t : Fin cfg2.N) :
    (dat2 (F := Ideal) V c).flushed 3 t
      = ((cfg2.win 3).blk t).view.read (Elt Ideal) (G (V c main_v21) (V c main_v22) (V c main_arg5)) := by
  show (cfg2.win 3).cut (grid2.coords t) ((dat2 V c).after 3 t) = _
  rw [after2_3]
  unfold out2_3
  rw [View.canon_unit_zero hz]
  simp only [View.ld_unit_zero (S := S4000x200) hz, View.ld_unit_zero (S := S200x200) hz]
  funext j
  refine (pay_apply _ _ _ j).trans ?_
  obtain ⟨o0, o1⟩ := emb_out t j
  show _ = G (V c main_v21) (V c main_v22) (V c main_arg5) (((cfg2.win 3).blk t).view.emb j)
  refine Finset.sum_congr rfl fun k _ => ?_
  exact congrArg₂ (fun a b : Elt Ideal .f32 => a * b)
    (congrArg₂ (fun a b : Elt Ideal .f32 => a + b) (blkA V c t _ _ o0 rfl) (blkB V c t _ _ o0 rfl)) (blkW V c t _ _ rfl o1)

/-! ## The blocks fill the result array -/

/-- An index of the result array is in point `t`'s block iff each coordinate is in the block's range on its axis. -/
theorem mem_blk (t : Fin cfg2.N) (i : S400000x200.Idx) :
    i ∈ ((cfg2.win 3).blk t).view.set ↔ ∀ a : Fin 2, win2_3.index t a * S4000x200.size a ≤ (i a).val ∧ (i a).val < win2_3.index t a * S4000x200.size a + S4000x200.size a := by
  show i ∈ ((View.whole main_v23).slice (win2_3.rect t)).set ↔ _
  rw [View.set_slice_whole, Rect.mem_set_unit]
  exact Iff.rfl

/-- Row `r` of the result lies in the block of point `r / 4000`, and every point writes its block back. -/
theorem cover (i : S400000x200.Idx) :
    ∃ t : Fin cfg2.N, (cfg2.win 3).flush t = true ∧ i ∈ ((cfg2.win 3).blk t).view.set := by
  have hN : cfg2.N = 100 := N_2
  have hi0 : (i 0).val < 400000 := (i 0).isLt
  have hi1 : (i 1).val < 200 := (i 1).isLt
  refine ⟨⟨(i 0).val / 4000, by rw [hN]; omega⟩, flush2_3 _, ?_⟩
  rw [mem_blk]
  obtain ⟨-, -, -, -, -, -, e0, e1⟩ := idx_facts ⟨(i 0).val / 4000, by rw [hN]; omega⟩
  intro a
  match a with
  | ⟨0, _⟩ =>
    show win2_3.index _ (0 : Fin 2) * 4000 ≤ (i 0).val ∧ (i 0).val < win2_3.index _ (0 : Fin 2) * 4000 + 4000
    rw [e0]; show (i 0).val / 4000 * 4000 ≤ (i 0).val ∧ (i 0).val < (i 0).val / 4000 * 4000 + 4000; omega
  | ⟨1, _⟩ =>
    show win2_3.index _ (1 : Fin 2) * 200 ≤ (i 1).val ∧ (i 1).val < win2_3.index _ (1 : Fin 2) * 200 + 200
    rw [e1]; omega

/-! ## The result array -/

/-- THE RESULT ARRAY after the region: entry `i` is `Σ_k (A (row of i, k) + B (row of i, k)) · W (k, column of i)`, for
    `A`, `B`, `W` the two edge arrays and the weight as the region finds them. -/
theorem final2 (c : Dev nD)
    (A B : (⟨S400000x200, .f32⟩ : BufTy).Contents (Elt Ideal)) (W : (⟨S200x200, .f32⟩ : BufTy).Contents (Elt Ideal))
    (hA : V c main_v21 = A) (hB : V c main_v22 = B) (hW : V c main_arg5 = W) :
    (dat2 (F := Ideal) V c).arrAt 3 cfg2.N = fun i => ∑ k : Fin 200, (A (lrowE i k) + B (lrowE i k)) * W (rcolE i k) := by
  subst hA hB hW
  exact (dat2 (F := Ideal) V c).arrAt_eq_of_cover 3 (G (V c main_v21) (V c main_v22) (V c main_arg5))
    (fun t _ => flushed_eq V c t) cover

end Cert.KernelIdeal.MsgValue2

end
-- ==== Proof.CombValue1.lean ====
/-
  The value of the combine step (region 1): after its ten row blocks the array main_v20 holds, at every index,
  the leaky-rectified  agg * norm + (mask * (h · Wl) + (1 - mask) * (h · We)),  the two products read as sums over the
  200 columns of h. First one element of one block from the block's loaded vectors, then the blocks as restrictions of
  the whole arrays, then the cover of the array by the ten blocks.
-/
import proofs.«413961_j50276887167213_1_alg».proof.Proof.Gen.KernelIdeal.Frame
import proofs.«413961_j50276887167213_1_alg».proof.Proof.Idx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CombValue1

open Cert.KernelIdeal Cert.KernelIdeal.Gen Cert.KernelIdeal.Idx
open Idealize.ShloMosaic Idealize.ShloMosaic.TcCoe Idealize.SL.Sem Idealize.ShloMosaic.ValueIdx
open Idealize.ShloMosaic.Pipeline (Dat)
open scoped BigOperators

/-- one output element of the combine step from its five scalar ingredients: the aggregated message, the degree
    normaliser, the has-incoming-edge mask as a float, and the two self-loop products -/
def combAt (agg nrm msk ll le : Ideal .f32) : Ideal .f32 :=
  let val := agg * nrm + (msk * ll + (Scalar.ofBits .f32 0x3F800000#32 - msk) * le)
  Scalar.select (FloatOps.cmpf .oge val (Scalar.ofBits .f32 0x00000000#32)) val (Scalar.ofBits .f32 0x3E6AAAAB#32 * val)

/-! ## One element of a block -/

/-- A column [a, 1] broadcast along the rows of [a, b] reads, at (p, q), the column's entry of row p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The left factor of the block product at output (p, q) and contraction index k sits at row p … -/
theorem lhs_row (i : S2000x200.Idx) (q : dot_S2000x200_S200x200_S2000x200_1_0_0_1_n_n.contr.Idx) :
    (dot_S2000x200_S200x200_S2000x200_1_0_0_1_n_n.lhsIdx i q 0).val = (i 0).val := by
  unfold DotDims.lhsIdx
  rw [dif_neg (show ¬(0 : Fin S2000x200.rank) ∈ dot_S2000x200_S200x200_S2000x200_1_0_0_1_n_n.lhsBatch by decide), dif_pos (show (0 : Fin S2000x200.rank) ∈ dot_S2000x200_S200x200_S2000x200_1_0_0_1_n_n.lhsNonContracting by decide)]
  rfl
/-- … and column k; -/
theorem lhs_col (i : S2000x200.Idx) (q : dot_S2000x200_S200x200_S2000x200_1_0_0_1_n_n.contr.Idx) :
    (dot_S2000x200_S200x200_S2000x200_1_0_0_1_n_n.lhsIdx i q 1).val = (q ⟨0, by decide⟩).val :=
  dot_S2000x200_S200x200_S2000x200_1_0_0_1_n_n.lhsIdx_val_of_single rfl i q
/-- the right factor at row k … -/
theorem rhs_row (i : S2000x200.Idx) (q : dot_S2000x200_S200x200_S2000x200_1_0_0_1_n_n.contr.Idx) :
    (dot_S2000x200_S200x200_S2000x200_1_0_0_1_n_n.rhsIdx i q 0).val = (q ⟨0, by decide⟩).val :=
  dot_S2000x200_S200x200_S2000x200_1_0_0_1_n_n.rhsIdx_val_of_single rfl i q
/-- … and column q. -/
theorem rhs_col (i : S2000x200.Idx) (q : dot_S2000x200_S200x200_S2000x200_1_0_0_1_n_n.contr.Idx) :
    (dot_S2000x200_S200x200_S2000x200_1_0_0_1_n_n.rhsIdx i q 1).val = (i 1).val := by
  unfold DotDims.rhsIdx
  rw [dif_neg (show ¬(1 : Fin S200x200.rank) ∈ dot_S2000x200_S200x200_S2000x200_1_0_0_1_n_n.rhsBatch by decide), dif_pos (show (1 : Fin S200x200.rank) ∈ dot_S2000x200_S200x200_S2000x200_1_0_0_1_n_n.rhsNonContracting by decide)]
  rfl

/-- The block product into the zero accumulator, at (p, q): row p of the left block against column q of the weights. -/
theorem blockProduct_apply (x : FVec Ideal S2000x200 .bf16) (w : FVec Ideal S200x200 .bf16) (p : Fin 2000) (q : Fin 200) :
    matmul dot_S2000x200_S200x200_S2000x200_1_0_0_1_n_n none x w (constant S2000x200 .f32 0x00000000#32) (ix2 p q)
      = ∑ k : Fin 200, x (ix2 p k) * w (ix2 k q) := by
  simp only [matmul]
  rw [Ideal.matmul_constant_zero_apply, ← Equiv.sum_comp (ValueIdx.contrEquiv1 dot_S2000x200_S200x200_S2000x200_1_0_0_1_n_n 200 rfl rfl).symm]
  refine Finset.sum_congr rfl fun k _ => ?_
  have hk := ValueIdx.contrEquiv1_symm_val dot_S2000x200_S200x200_S2000x200_1_0_0_1_n_n 200 rfl rfl k
  have el : dot_S2000x200_S200x200_S2000x200_1_0_0_1_n_n.lhsIdx (ix2 p q) ((ValueIdx.contrEquiv1 dot_S2000x200_S200x200_S2000x200_1_0_0_1_n_n 200 rfl rfl).symm k) = ix2 p k := funext fun a => Fin.ext (by
    match a with
    | ⟨0, _⟩ => exact lhs_row _ _
    | ⟨1, _⟩ => exact (lhs_col _ _).trans hk)
  have er : dot_S2000x200_S200x200_S2000x200_1_0_0_1_n_n.rhsIdx (ix2 p q) ((ValueIdx.contrEquiv1 dot_S2000x200_S200x200_S2000x200_1_0_0_1_n_n 200 rfl rfl).symm k) = ix2 k q := funext fun a => Fin.ext (by
    match a with
    | ⟨0, _⟩ => exact (rhs_row _ _).trans hk
    | ⟨1, _⟩ => exact rhs_col _ _)
  rw [el, er]

/-- ONE ELEMENT OF THE BLOCK the body stores, from the six loaded vectors: the block of h (v0), the two weight
    matrices (v3, v6), the mask column (v9), the block of agg (v18) and the normaliser column (v20). -/
theorem payload_apply (v0 v18 : Vec Ideal S2000x200 .f32) (v3 v6 : Vec Ideal S200x200 .f32) (v9 v20 : Vec Ideal S2000x1 .f32)
    (p : Fin 2000) (q : Fin 200) :
    k1_pay1 v0 v3 v6 v9 v18 v20 (ix2 p q)
      = combAt (v18 (ix2 p q)) (v20 (ix2 p (0 : Fin 1))) (v9 (ix2 p (0 : Fin 1)))
          (∑ k : Fin 200, v0 (ix2 p k) * v3 (ix2 k q)) (∑ k : Fin 200, v0 (ix2 p k) * v6 (ix2 k q)) := by
  unfold k1_pay1 combAt
  simp only [shapeCast_self]
  simp only [select_apply, cmpf_apply, mulf_apply, addf_apply, subf_apply, broadcast_apply]
  rw [broadcastTo_col_apply, broadcastTo_col_apply, broadcastTo_col_apply, blockProduct_apply, blockProduct_apply]
  simp only [subf_apply, broadcast_apply, truncf_apply]

/-! ## The blocks as restrictions of the whole arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten points: the five row-blocked windows (h, agg, norm, mask and the
    output) sit at block row t, block column 0; the two weight matrices stay at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- Row p of point t's block of h is row 2000 t + p of h. -/
theorem blk_h (c : Dev nD) (t : Fin cfg1.N) (y : S2000x200.Idx) (i : S20000x200.Idx)
    (h0 : (i 0).val = t.val * 2000 + (y 0).val) (h1 : (i 1).val = (y 1).val) :
    (iblk1 (F := Ideal) V c 0 t : Vec Ideal S2000x200 .f32) y = (V c main_v0 : S20000x200.Idx → Ideal .f32) i := by
  obtain ⟨⟨e0, e1⟩, -⟩ := idx_facts t
  unfold iblk1
  rw [View.read_apply]
  show (V c main_v0 : S20000x200.Idx → Ideal .f32) _ = _
  congr 1
  funext a
  apply Fin.ext
  match a with
  | ⟨0, _⟩ => show win1_0.index t (0 : Fin 2) * 2000 + 1 * (y 0).val = (i 0).val; rw [e0, h0]; omega
  | ⟨1, _⟩ => show win1_0.index t (1 : Fin 2) * 200 + 1 * (y 1).val = (i 1).val; rw [e1, h1]; omega

/-- Likewise agg … -/
theorem blk_agg (c : Dev nD) (t : Fin cfg1.N) (y : S2000x200.Idx) (i : S20000x200.Idx)
    (h0 : (i 0).val = t.val * 2000 + (y 0).val) (h1 : (i 1).val = (y 1).val) :
    (iblk1 (F := Ideal) V c 1 t : Vec Ideal S2000x200 .f32) y = (V c main_v19 : S20000x200.Idx → Ideal .f32) i := by
  obtain ⟨-, ⟨e0, e1⟩, -⟩ := idx_facts t
  unfold iblk1
  rw [View.read_apply]
  show (V c main_v19 : S20000x200.Idx → Ideal .f32) _ = _
  congr 1
  funext a
  apply Fin.ext
  match a with
  | ⟨0, _⟩ => show win1_1.index t (0 : Fin 2) * 2000 + 1 * (y 0).val = (i 0).val; rw [e0, h0]; omega
  | ⟨1, _⟩ => show win1_1.index t (1 : Fin 2) * 200 + 1 * (y 1).val = (i 1).val; rw [e1, h1]; omega

/-- … the normaliser column … -/
theorem blk_nrm (c : Dev nD) (t : Fin cfg1.N) (y : S2000x1.Idx) (i : S20000x1.Idx)
    (h0 : (i 0).val = t.val * 2000 + (y 0).val) (h1 : (i 1).val = (y 1).val) :
    (iblk1 (F := Ideal) V c 2 t : Vec Ideal S2000x1 .f32) y = (V c main_v9 : S20000x1.Idx → Ideal .f32) i := by
  obtain ⟨-, -, ⟨e0, e1⟩, -⟩ := idx_facts t
  unfold iblk1
  rw [View.read_apply]
  show (V c main_v9 : S20000x1.Idx → Ideal .f32) _ = _
  congr 1
  funext a
  apply Fin.ext
  match a with
  | ⟨0, _⟩ => show win1_2.index t (0 : Fin 2) * 2000 + 1 * (y 0).val = (i 0).val; rw [e0, h0]; omega
  | ⟨1, _⟩ => show win1_2.index t (1 : Fin 2) * 1 + 1 * (y 1).val = (i 1).val; rw [e1, h1]; omega

/-- … and the mask column. -/
theorem blk_msk (c : Dev nD) (t : Fin cfg1.N) (y : S2000x1.Idx) (i : S20000x1.Idx)
    (h0 : (i 0).val = t.val * 2000 + (y 0).val) (h1 : (i 1).val = (y 1).val) :
    (iblk1 (F := Ideal) V c 3 t : Vec Ideal S2000x1 .f32) y = (V c main_v13 : S20000x1.Idx → Ideal .f32) i := by
  obtain ⟨-, -, -, ⟨e0, e1⟩, -⟩ := idx_facts t
  unfold iblk1
  rw [View.read_apply]
  show (V c main_v13 : S20000x1.Idx → Ideal .f32) _ = _
  congr 1
  funext a
  apply Fin.ext
  match a with
  | ⟨0, _⟩ => show win1_3.index t (0 : Fin 2) * 2000 + 1 * (y 0).val = (i 0).val; rw [e0, h0]; omega
  | ⟨1, _⟩ => show win1_3.index t (1 : Fin 2) * 1 + 1 * (y 1).val = (i 1).val; rw [e1, h1]; omega

/-- Every point's block of the first weight matrix is the whole matrix … -/
theorem blk_wl (c : Dev nD) (t : Fin cfg1.N) (y i : S200x200.Idx)
    (h0 : (i 0).val = (y 0).val) (h1 : (i 1).val = (y 1).val) :
    (iblk1 (F := Ideal) V c 4 t : Vec Ideal S200x200 .f32) y = (V c main_arg3 : S200x200.Idx → Ideal .f32) i := by
  obtain ⟨-, -, -, -, ⟨e0, e1⟩, -⟩ := idx_facts t
  unfold iblk1
  rw [View.read_apply]
  show (V c main_arg3 : S200x200.Idx → Ideal .f32) _ = _
  congr 1
  funext a
  apply Fin.ext
  match a with
  | ⟨0, _⟩ => show win1_4.index t (0 : Fin 2) * 200 + 1 * (y 0).val = (i 0).val; rw [e0, h0]; omega
  | ⟨1, _⟩ => show win1_4.index t (1 : Fin 2) * 200 + 1 * (y 1).val = (i 1).val; rw [e1, h1]; omega

/-- … and so is the second's. -/
theorem blk_we (c : Dev nD) (t : Fin cfg1.N) (y i : S200x200.Idx)
    (h0 : (i 0).val = (y 0).val) (h1 : (i 1).val = (y 1).val) :
    (iblk1 (F := Ideal) V c 5 t : Vec Ideal S200x200 .f32) y = (V c main_arg4 : S200x200.Idx → Ideal .f32) i := by
  obtain ⟨-, -, -, -, -, ⟨e0, e1⟩, -⟩ := idx_facts t
  unfold iblk1
  rw [View.read_apply]
  show (V c main_arg4 : S200x200.Idx → Ideal .f32) _ = _
  congr 1
  funext a
  apply Fin.ext
  match a with
  | ⟨0, _⟩ => show win1_5.index t (0 : Fin 2) * 200 + 1 * (y 0).val = (i 0).val; rw [e0, h0]; omega
  | ⟨1, _⟩ => show win1_5.index t (1 : Fin 2) * 200 + 1 * (y 1).val = (i 1).val; rw [e1, h1]; omega

/-- The combine step of whole arrays, index by index: what the blocks restrict. -/
def combOf (H AGG : S20000x200.Idx → Ideal .f32) (NRM MSK : S20000x1.Idx → Ideal .f32) (WL WE : S200x200.Idx → Ideal .f32) :
    S20000x200.Idx → Ideal .f32 := fun i =>
  combAt (AGG i) (NRM (col0N i)) (MSK (col0N i)) (∑ k : Fin 200, H (lrowN i k) * WL (rcolN i k)) (∑ k : Fin 200, H (lrowN i k) * WE (rcolN i k))

/-- It at the arrays as the region finds them. -/
def combined (c : Dev nD) : S20000x200.Idx → Ideal .f32 :=
  combOf (V c main_v0) (V c main_v19) (V c main_v9) (V c main_v13) (V c main_arg3) (V c main_arg4)

/-- Element (p, q) of what point t's body stores is the whole-array function at row 2000 t + p, column q. -/
theorem block_apply (c : Dev nD) (t : Fin cfg1.N) (p : Fin 2000) (q : Fin 200) (i : S20000x200.Idx)
    (h0 : (i 0).val = t.val * 2000 + p.val) (h1 : (i 1).val = q.val) :
    k1_pay1 (iblk1 (F := Ideal) V c 0 t) (iblk1 (F := Ideal) V c 4 t) (iblk1 (F := Ideal) V c 5 t) (iblk1 (F := Ideal) V c 3 t)
      (iblk1 (F := Ideal) V c 1 t) (iblk1 (F := Ideal) V c 2 t) (ix2 p q) = combined V c i := by
  refine (payload_apply _ _ _ _ _ _ p q).trans ?_
  unfold combined combOf
  rw [blk_agg V c t (ix2 p q) i h0 h1, blk_nrm V c t (ix2 p (0 : Fin 1)) (col0N i) h0 rfl,
    blk_msk V c t (ix2 p (0 : Fin 1)) (col0N i) h0 rfl]
  refine congrArg₂ (combAt _ _ _) (Finset.sum_congr rfl fun k _ => ?_) (Finset.sum_congr rfl fun k _ => ?_)
  · rw [blk_h V c t (ix2 p k) (lrowN i k) h0 rfl, blk_wl V c t (ix2 k q) (rcolN i k) rfl h1]
  · rw [blk_h V c t (ix2 p k) (lrowN i k) h0 rfl, blk_we V c t (ix2 k q) (rcolN i k) rfl h1]

/-- WHAT POINT t WRITES BACK is block t of the whole-array function. -/
theorem flushed_eq (c : Dev nD) (t : Fin cfg1.N) :
    (dat1 (F := Ideal) V c).flushed 6 t = ((cfg1.win 6).blk t).view.read (Elt Ideal) (combined V c) := by
  show (cfg1.win 6).cut (grid1.coords t) ((dat1 (F := Ideal) V c).after 6 t) = _
  rw [after1_6]
  unfold out1_6
  rw [View.canon_unit_zero hz]
  simp only [View.ld_unit_zero (S := S2000x200) hz, View.ld_unit_zero (S := S200x200) hz, View.ld_unit_zero (S := S2000x1) hz]
  obtain ⟨-, -, -, -, -, -, e0, e1⟩ := idx_facts t
  refine funext fun (j : S2000x200.Idx) => ?_
  obtain ⟨p, q, rfl⟩ : ∃ (p : Fin 2000) (q : Fin 200), j = ix2 p q := ⟨j 0, j 1, eq_ix2 j⟩
  rw [View.read_apply]
  exact block_apply V c t p q _
    (by show win1_6.index t (0 : Fin 2) * 2000 + 1 * p.val = t.val * 2000 + p.val; rw [e0]; omega)
    (by show win1_6.index t (1 : Fin 2) * 200 + 1 * q.val = q.val; rw [e1]; omega)

/-! ## The ten blocks cover the array -/

/-- An index of the array is in point t's block iff each coordinate is in the block's range on its axis. -/
theorem mem_blk (t : Fin cfg1.N) (i : S20000x200.Idx) :
    i ∈ ((cfg1.win 6).blk t).view.set ↔ ∀ a : Fin 2, win1_6.index t a * S2000x200.size a ≤ (i a).val ∧ (i a).val < win1_6.index t a * S2000x200.size a + S2000x200.size a := by
  show i ∈ ((View.whole main_v20).slice (win1_6.rect t)).set ↔ _
  rw [View.set_slice_whole, Rect.mem_set_unit]
  exact Iff.rfl

/-- Row r lies in the block of point r / 2000, and every point writes its block back. -/
theorem cover (i : S20000x200.Idx) :
    ∃ t : Fin cfg1.N, (cfg1.win 6).flush t = true ∧ i ∈ ((cfg1.win 6).blk t).view.set := by
  have hi0 : (i 0).val < 20000 := (i 0).isLt
  have hi1 : (i 1).val < 200 := (i 1).isLt
  have hN : grid1.N = 10 := N_1
  have hlt : (i 0).val / 2000 < cfg1.N := by show _ < grid1.N; rw [hN]; omega
  refine ⟨⟨(i 0).val / 2000, hlt⟩, flush1_6 _, ?_⟩
  rw [mem_blk]
  obtain ⟨-, -, -, -, -, -, e0, e1⟩ := idx_facts ⟨(i 0).val / 2000, hlt⟩
  intro a
  match a with
  | ⟨0, _⟩ =>
    show win1_6.index ⟨(i 0).val / 2000, hlt⟩ (0 : Fin 2) * 2000 ≤ (i 0).val ∧ (i 0).val < win1_6.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, hlt⟩ (1 : Fin 2) * 200 ≤ (i 1).val ∧ (i 1).val < win1_6.index ⟨(i 0).val / 2000, hlt⟩ (1 : Fin 2) * 200 + 200
    rw [e1]; omega

/-! ## The array after the region -/

/-- THE ARRAY main_v20 AFTER THE REGION: the combine step of the arrays the region finds, index by index. -/
theorem final1 (c : Dev nD)
    (H AGG : (⟨S20000x200, .f32⟩ : BufTy).Contents (Elt Ideal)) (NRM MSK : (⟨S20000x1, .f32⟩ : BufTy).Contents (Elt Ideal))
    (WL WE : (⟨S200x200, .f32⟩ : BufTy).Contents (Elt Ideal))
    (hH : V c main_v0 = H) (hAGG : V c main_v19 = AGG) (hNRM : V c main_v9 = NRM) (hMSK : V c main_v13 = MSK)
    (hWL : V c main_arg3 = WL) (hWE : V c main_arg4 = WE) :
    (dat1 (F := Ideal) V c).arrAt 6 cfg1.N = fun i => combAt (AGG i) (NRM (col0N i)) (MSK (col0N i))
      (∑ k : Fin 200, H (lrowN i k) * WL (rcolN i k)) (∑ k : Fin 200, H (lrowN i k) * WE (rcolN i k)) := by
  subst hH hAGG hNRM hMSK hWL hWE
  exact (dat1 (F := Ideal) V c).arrAt_eq_of_cover 6 (combined V c) (fun t _ => flushed_eq V c t) cover

end Cert.KernelIdeal.CombValue1

end
-- ==== Proof.CombValue3.lean ====
/-
  The value of the combine step (region 3): after its ten row blocks the array main_v27 holds, at every index,
  the leaky-rectified  agg * norm + (mask * (h · Wl) + (1 - mask) * (h · We)),  the two products read as sums over the
  200 columns of h. First one element of one block from the block's loaded vectors, then the blocks as restrictions of
  the whole arrays, then the cover of the array by the ten blocks.
-/
import proofs.«413961_j50276887167213_1_alg».proof.Proof.Gen.KernelIdeal.Frame
import proofs.«413961_j50276887167213_1_alg».proof.Proof.Idx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CombValue3

open Cert.KernelIdeal Cert.KernelIdeal.Gen Cert.KernelIdeal.Idx
open Idealize.ShloMosaic Idealize.ShloMosaic.TcCoe Idealize.SL.Sem Idealize.ShloMosaic.ValueIdx
open Idealize.ShloMosaic.Pipeline (Dat)
open scoped BigOperators

/-- one output element of the combine step from its five scalar ingredients: the aggregated message, the degree
    normaliser, the has-incoming-edge mask as a float, and the two self-loop products -/
def combAt (agg nrm msk ll le : Ideal .f32) : Ideal .f32 :=
  let val := agg * nrm + (msk * ll + (Scalar.ofBits .f32 0x3F800000#32 - msk) * le)
  Scalar.select (FloatOps.cmpf .oge val (Scalar.ofBits .f32 0x00000000#32)) val (Scalar.ofBits .f32 0x3E6AAAAB#32 * val)

/-! ## One element of a block -/

/-- A column [a, 1] broadcast along the rows of [a, b] reads, at (p, q), the column's entry of row p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The left factor of the block product at output (p, q) and contraction index k sits at row p … -/
theorem lhs_row (i : S2000x200.Idx) (q : dot_S2000x200_S200x200_S2000x200_1_0_0_1_n_n.contr.Idx) :
    (dot_S2000x200_S200x200_S2000x200_1_0_0_1_n_n.lhsIdx i q 0).val = (i 0).val := by
  unfold DotDims.lhsIdx
  rw [dif_neg (show ¬(0 : Fin S2000x200.rank) ∈ dot_S2000x200_S200x200_S2000x200_1_0_0_1_n_n.lhsBatch by decide), dif_pos (show (0 : Fin S2000x200.rank) ∈ dot_S2000x200_S200x200_S2000x200_1_0_0_1_n_n.lhsNonContracting by decide)]
  rfl
/-- … and column k; -/
theorem lhs_col (i : S2000x200.Idx) (q : dot_S2000x200_S200x200_S2000x200_1_0_0_1_n_n.contr.Idx) :
    (dot_S2000x200_S200x200_S2000x200_1_0_0_1_n_n.lhsIdx i q 1).val = (q ⟨0, by decide⟩).val :=
  dot_S2000x200_S200x200_S2000x200_1_0_0_1_n_n.lhsIdx_val_of_single rfl i q
/-- the right factor at row k … -/
theorem rhs_row (i : S2000x200.Idx) (q : dot_S2000x200_S200x200_S2000x200_1_0_0_1_n_n.contr.Idx) :
    (dot_S2000x200_S200x200_S2000x200_1_0_0_1_n_n.rhsIdx i q 0).val = (q ⟨0, by decide⟩).val :=
  dot_S2000x200_S200x200_S2000x200_1_0_0_1_n_n.rhsIdx_val_of_single rfl i q
/-- … and column q. -/
theorem rhs_col (i : S2000x200.Idx) (q : dot_S2000x200_S200x200_S2000x200_1_0_0_1_n_n.contr.Idx) :
    (dot_S2000x200_S200x200_S2000x200_1_0_0_1_n_n.rhsIdx i q 1).val = (i 1).val := by
  unfold DotDims.rhsIdx
  rw [dif_neg (show ¬(1 : Fin S200x200.rank) ∈ dot_S2000x200_S200x200_S2000x200_1_0_0_1_n_n.rhsBatch by decide), dif_pos (show (1 : Fin S200x200.rank) ∈ dot_S2000x200_S200x200_S2000x200_1_0_0_1_n_n.rhsNonContracting by decide)]
  rfl

/-- The block product into the zero accumulator, at (p, q): row p of the left block against column q of the weights. -/
theorem blockProduct_apply (x : FVec Ideal S2000x200 .bf16) (w : FVec Ideal S200x200 .bf16) (p : Fin 2000) (q : Fin 200) :
    matmul dot_S2000x200_S200x200_S2000x200_1_0_0_1_n_n none x w (constant S2000x200 .f32 0x00000000#32) (ix2 p q)
      = ∑ k : Fin 200, x (ix2 p k) * w (ix2 k q) := by
  simp only [matmul]
  rw [Ideal.matmul_constant_zero_apply, ← Equiv.sum_comp (ValueIdx.contrEquiv1 dot_S2000x200_S200x200_S2000x200_1_0_0_1_n_n 200 rfl rfl).symm]
  refine Finset.sum_congr rfl fun k _ => ?_
  have hk := ValueIdx.contrEquiv1_symm_val dot_S2000x200_S200x200_S2000x200_1_0_0_1_n_n 200 rfl rfl k
  have el : dot_S2000x200_S200x200_S2000x200_1_0_0_1_n_n.lhsIdx (ix2 p q) ((ValueIdx.contrEquiv1 dot_S2000x200_S200x200_S2000x200_1_0_0_1_n_n 200 rfl rfl).symm k) = ix2 p k := funext fun a => Fin.ext (by
    match a with
    | ⟨0, _⟩ => exact lhs_row _ _
    | ⟨1, _⟩ => exact (lhs_col _ _).trans hk)
  have er : dot_S2000x200_S200x200_S2000x200_1_0_0_1_n_n.rhsIdx (ix2 p q) ((ValueIdx.contrEquiv1 dot_S2000x200_S200x200_S2000x200_1_0_0_1_n_n 200 rfl rfl).symm k) = ix2 k q := funext fun a => Fin.ext (by
    match a with
    | ⟨0, _⟩ => exact (rhs_row _ _).trans hk
    | ⟨1, _⟩ => exact rhs_col _ _)
  rw [el, er]

/-- ONE ELEMENT OF THE BLOCK the body stores, from the six loaded vectors: the block of h (v0), the two weight
    matrices (v3, v6), the mask column (v9), the block of agg (v18) and the normaliser column (v20). -/
theorem payload_apply (v0 v18 : Vec Ideal S2000x200 .f32) (v3 v6 : Vec Ideal S200x200 .f32) (v9 v20 : Vec Ideal S2000x1 .f32)
    (p : Fin 2000) (q : Fin 200) :
    k3_pay1 v0 v3 v6 v9 v18 v20 (ix2 p q)
      = combAt (v18 (ix2 p q)) (v20 (ix2 p (0 : Fin 1))) (v9 (ix2 p (0 : Fin 1)))
          (∑ k : Fin 200, v0 (ix2 p k) * v3 (ix2 k q)) (∑ k : Fin 200, v0 (ix2 p k) * v6 (ix2 k q)) := by
  unfold k3_pay1 combAt
  simp only [shapeCast_self]
  simp only [select_apply, cmpf_apply, mulf_apply, addf_apply, subf_apply, broadcast_apply]
  rw [broadcastTo_col_apply, broadcastTo_col_apply, broadcastTo_col_apply, blockProduct_apply, blockProduct_apply]
  simp only [subf_apply, broadcast_apply, truncf_apply]

/-! ## The blocks as restrictions of the whole arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten points: the five row-blocked windows (h, agg, norm, mask and the
    output) sit at block row t, block column 0; the two weight matrices stay at block (0, 0). -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = t.val ∧ win3_6.index t (1 : Fin 2) = 0) :=
  (by decide +kernel : ∀ t : Fin grid3.N, _)

/-- Row p of point t's block of h is row 2000 t + p of h. -/
theorem blk_h (c : Dev nD) (t : Fin cfg3.N) (y : S2000x200.Idx) (i : S20000x200.Idx)
    (h0 : (i 0).val = t.val * 2000 + (y 0).val) (h1 : (i 1).val = (y 1).val) :
    (iblk3 (F := Ideal) V c 0 t : Vec Ideal S2000x200 .f32) y = (V c main_v20 : S20000x200.Idx → Ideal .f32) i := by
  obtain ⟨⟨e0, e1⟩, -⟩ := idx_facts t
  unfold iblk3
  rw [View.read_apply]
  show (V c main_v20 : S20000x200.Idx → Ideal .f32) _ = _
  congr 1
  funext a
  apply Fin.ext
  match a with
  | ⟨0, _⟩ => show win3_0.index t (0 : Fin 2) * 2000 + 1 * (y 0).val = (i 0).val; rw [e0, h0]; omega
  | ⟨1, _⟩ => show win3_0.index t (1 : Fin 2) * 200 + 1 * (y 1).val = (i 1).val; rw [e1, h1]; omega

/-- Likewise agg … -/
theorem blk_agg (c : Dev nD) (t : Fin cfg3.N) (y : S2000x200.Idx) (i : S20000x200.Idx)
    (h0 : (i 0).val = t.val * 2000 + (y 0).val) (h1 : (i 1).val = (y 1).val) :
    (iblk3 (F := Ideal) V c 1 t : Vec Ideal S2000x200 .f32) y = (V c main_v26 : S20000x200.Idx → Ideal .f32) i := by
  obtain ⟨-, ⟨e0, e1⟩, -⟩ := idx_facts t
  unfold iblk3
  rw [View.read_apply]
  show (V c main_v26 : S20000x200.Idx → Ideal .f32) _ = _
  congr 1
  funext a
  apply Fin.ext
  match a with
  | ⟨0, _⟩ => show win3_1.index t (0 : Fin 2) * 2000 + 1 * (y 0).val = (i 0).val; rw [e0, h0]; omega
  | ⟨1, _⟩ => show win3_1.index t (1 : Fin 2) * 200 + 1 * (y 1).val = (i 1).val; rw [e1, h1]; omega

/-- … the normaliser column … -/
theorem blk_nrm (c : Dev nD) (t : Fin cfg3.N) (y : S2000x1.Idx) (i : S20000x1.Idx)
    (h0 : (i 0).val = t.val * 2000 + (y 0).val) (h1 : (i 1).val = (y 1).val) :
    (iblk3 (F := Ideal) V c 2 t : Vec Ideal S2000x1 .f32) y = (V c main_v9 : S20000x1.Idx → Ideal .f32) i := by
  obtain ⟨-, -, ⟨e0, e1⟩, -⟩ := idx_facts t
  unfold iblk3
  rw [View.read_apply]
  show (V c main_v9 : S20000x1.Idx → Ideal .f32) _ = _
  congr 1
  funext a
  apply Fin.ext
  match a with
  | ⟨0, _⟩ => show win3_2.index t (0 : Fin 2) * 2000 + 1 * (y 0).val = (i 0).val; rw [e0, h0]; omega
  | ⟨1, _⟩ => show win3_2.index t (1 : Fin 2) * 1 + 1 * (y 1).val = (i 1).val; rw [e1, h1]; omega

/-- … and the mask column. -/
theorem blk_msk (c : Dev nD) (t : Fin cfg3.N) (y : S2000x1.Idx) (i : S20000x1.Idx)
    (h0 : (i 0).val = t.val * 2000 + (y 0).val) (h1 : (i 1).val = (y 1).val) :
    (iblk3 (F := Ideal) V c 3 t : Vec Ideal S2000x1 .f32) y = (V c main_v13 : S20000x1.Idx → Ideal .f32) i := by
  obtain ⟨-, -, -, ⟨e0, e1⟩, -⟩ := idx_facts t
  unfold iblk3
  rw [View.read_apply]
  show (V c main_v13 : S20000x1.Idx → Ideal .f32) _ = _
  congr 1
  funext a
  apply Fin.ext
  match a with
  | ⟨0, _⟩ => show win3_3.index t (0 : Fin 2) * 2000 + 1 * (y 0).val = (i 0).val; rw [e0, h0]; omega
  | ⟨1, _⟩ => show win3_3.index t (1 : Fin 2) * 1 + 1 * (y 1).val = (i 1).val; rw [e1, h1]; omega

/-- Every point's block of the first weight matrix is the whole matrix … -/
theorem blk_wl (c : Dev nD) (t : Fin cfg3.N) (y i : S200x200.Idx)
    (h0 : (i 0).val = (y 0).val) (h1 : (i 1).val = (y 1).val) :
    (iblk3 (F := Ideal) V c 4 t : Vec Ideal S200x200 .f32) y = (V c main_arg6 : S200x200.Idx → Ideal .f32) i := by
  obtain ⟨-, -, -, -, ⟨e0, e1⟩, -⟩ := idx_facts t
  unfold iblk3
  rw [View.read_apply]
  show (V c main_arg6 : S200x200.Idx → Ideal .f32) _ = _
  congr 1
  funext a
  apply Fin.ext
  match a with
  | ⟨0, _⟩ => show win3_4.index t (0 : Fin 2) * 200 + 1 * (y 0).val = (i 0).val; rw [e0, h0]; omega
  | ⟨1, _⟩ => show win3_4.index t (1 : Fin 2) * 200 + 1 * (y 1).val = (i 1).val; rw [e1, h1]; omega

/-- … and so is the second's. -/
theorem blk_we (c : Dev nD) (t : Fin cfg3.N) (y i : S200x200.Idx)
    (h0 : (i 0).val = (y 0).val) (h1 : (i 1).val = (y 1).val) :
    (iblk3 (F := Ideal) V c 5 t : Vec Ideal S200x200 .f32) y = (V c main_arg7 : S200x200.Idx → Ideal .f32) i := by
  obtain ⟨-, -, -, -, -, ⟨e0, e1⟩, -⟩ := idx_facts t
  unfold iblk3
  rw [View.read_apply]
  show (V c main_arg7 : S200x200.Idx → Ideal .f32) _ = _
  congr 1
  funext a
  apply Fin.ext
  match a with
  | ⟨0, _⟩ => show win3_5.index t (0 : Fin 2) * 200 + 1 * (y 0).val = (i 0).val; rw [e0, h0]; omega
  | ⟨1, _⟩ => show win3_5.index t (1 : Fin 2) * 200 + 1 * (y 1).val = (i 1).val; rw [e1, h1]; omega

/-- The combine step of whole arrays, index by index: what the blocks restrict. -/
def combOf (H AGG : S20000x200.Idx → Ideal .f32) (NRM MSK : S20000x1.Idx → Ideal .f32) (WL WE : S200x200.Idx → Ideal .f32) :
    S20000x200.Idx → Ideal .f32 := fun i =>
  combAt (AGG i) (NRM (col0N i)) (MSK (col0N i)) (∑ k : Fin 200, H (lrowN i k) * WL (rcolN i k)) (∑ k : Fin 200, H (lrowN i k) * WE (rcolN i k))

/-- It at the arrays as the region finds them. -/
def combined (c : Dev nD) : S20000x200.Idx → Ideal .f32 :=
  combOf (V c main_v20) (V c main_v26) (V c main_v9) (V c main_v13) (V c main_arg6) (V c main_arg7)

/-- Element (p, q) of what point t's body stores is the whole-array function at row 2000 t + p, column q. -/
theorem block_apply (c : Dev nD) (t : Fin cfg3.N) (p : Fin 2000) (q : Fin 200) (i : S20000x200.Idx)
    (h0 : (i 0).val = t.val * 2000 + p.val) (h1 : (i 1).val = q.val) :
    k3_pay1 (iblk3 (F := Ideal) V c 0 t) (iblk3 (F := Ideal) V c 4 t) (iblk3 (F := Ideal) V c 5 t) (iblk3 (F := Ideal) V c 3 t)
      (iblk3 (F := Ideal) V c 1 t) (iblk3 (F := Ideal) V c 2 t) (ix2 p q) = combined V c i := by
  refine (payload_apply _ _ _ _ _ _ p q).trans ?_
  unfold combined combOf
  rw [blk_agg V c t (ix2 p q) i h0 h1, blk_nrm V c t (ix2 p (0 : Fin 1)) (col0N i) h0 rfl,
    blk_msk V c t (ix2 p (0 : Fin 1)) (col0N i) h0 rfl]
  refine congrArg₂ (combAt _ _ _) (Finset.sum_congr rfl fun k _ => ?_) (Finset.sum_congr rfl fun k _ => ?_)
  · rw [blk_h V c t (ix2 p k) (lrowN i k) h0 rfl, blk_wl V c t (ix2 k q) (rcolN i k) rfl h1]
  · rw [blk_h V c t (ix2 p k) (lrowN i k) h0 rfl, blk_we V c t (ix2 k q) (rcolN i k) rfl h1]

/-- WHAT POINT t WRITES BACK is block t of the whole-array function. -/
theorem flushed_eq (c : Dev nD) (t : Fin cfg3.N) :
    (dat3 (F := Ideal) V c).flushed 6 t = ((cfg3.win 6).blk t).view.read (Elt Ideal) (combined V c) := by
  show (cfg3.win 6).cut (grid3.coords t) ((dat3 (F := Ideal) V c).after 6 t) = _
  rw [after3_6]
  unfold out3_6
  rw [View.canon_unit_zero hz]
  simp only [View.ld_unit_zero (S := S2000x200) hz, View.ld_unit_zero (S := S200x200) hz, View.ld_unit_zero (S := S2000x1) hz]
  obtain ⟨-, -, -, -, -, -, e0, e1⟩ := idx_facts t
  refine funext fun (j : S2000x200.Idx) => ?_
  obtain ⟨p, q, rfl⟩ : ∃ (p : Fin 2000) (q : Fin 200), j = ix2 p q := ⟨j 0, j 1, eq_ix2 j⟩
  rw [View.read_apply]
  exact block_apply V c t p q _
    (by show win3_6.index t (0 : Fin 2) * 2000 + 1 * p.val = t.val * 2000 + p.val; rw [e0]; omega)
    (by show win3_6.index t (1 : Fin 2) * 200 + 1 * q.val = q.val; rw [e1]; omega)

/-! ## The ten blocks cover the array -/

/-- An index of the array is in point t's block iff each coordinate is in the block's range on its axis. -/
theorem mem_blk (t : Fin cfg3.N) (i : S20000x200.Idx) :
    i ∈ ((cfg3.win 6).blk t).view.set ↔ ∀ a : Fin 2, win3_6.index t a * S2000x200.size a ≤ (i a).val ∧ (i a).val < win3_6.index t a * S2000x200.size a + S2000x200.size a := by
  show i ∈ ((View.whole main_v27).slice (win3_6.rect t)).set ↔ _
  rw [View.set_slice_whole, Rect.mem_set_unit]
  exact Iff.rfl

/-- Row r lies in the block of point r / 2000, and every point writes its block back. -/
theorem cover (i : S20000x200.Idx) :
    ∃ t : Fin cfg3.N, (cfg3.win 6).flush t = true ∧ i ∈ ((cfg3.win 6).blk t).view.set := by
  have hi0 : (i 0).val < 20000 := (i 0).isLt
  have hi1 : (i 1).val < 200 := (i 1).isLt
  have hN : grid3.N = 10 := N_3
  have hlt : (i 0).val / 2000 < cfg3.N := by show _ < grid3.N; rw [hN]; omega
  refine ⟨⟨(i 0).val / 2000, hlt⟩, flush3_6 _, ?_⟩
  rw [mem_blk]
  obtain ⟨-, -, -, -, -, -, e0, e1⟩ := idx_facts ⟨(i 0).val / 2000, hlt⟩
  intro a
  match a with
  | ⟨0, _⟩ =>
    show win3_6.index ⟨(i 0).val / 2000, hlt⟩ (0 : Fin 2) * 2000 ≤ (i 0).val ∧ (i 0).val < win3_6.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win3_6.index ⟨(i 0).val / 2000, hlt⟩ (1 : Fin 2) * 200 ≤ (i 1).val ∧ (i 1).val < win3_6.index ⟨(i 0).val / 2000, hlt⟩ (1 : Fin 2) * 200 + 200
    rw [e1]; omega

/-! ## The array after the region -/

/-- THE ARRAY main_v27 AFTER THE REGION: the combine step of the arrays the region finds, index by index. -/
theorem final3 (c : Dev nD)
    (H AGG : (⟨S20000x200, .f32⟩ : BufTy).Contents (Elt Ideal)) (NRM MSK : (⟨S20000x1, .f32⟩ : BufTy).Contents (Elt Ideal))
    (WL WE : (⟨S200x200, .f32⟩ : BufTy).Contents (Elt Ideal))
    (hH : V c main_v20 = H) (hAGG : V c main_v26 = AGG) (hNRM : V c main_v9 = NRM) (hMSK : V c main_v13 = MSK)
    (hWL : V c main_arg6 = WL) (hWE : V c main_arg7 = WE) :
    (dat3 (F := Ideal) V c).arrAt 6 cfg3.N = fun i => combAt (AGG i) (NRM (col0N i)) (MSK (col0N i))
      (∑ k : Fin 200, H (lrowN i k) * WL (rcolN i k)) (∑ k : Fin 200, H (lrowN i k) * WE (rcolN i k)) := by
  subst hH hAGG hNRM hMSK hWL hWE
  exact (dat3 (F := Ideal) V c).arrAt_eq_of_cover 6 (combined V c) (fun t _ => flushed_eq V c t) cover

end Cert.KernelIdeal.CombValue3

end
-- ==== Proof.BridgeMsg.lean ====
/-
  The reference's two message arrays as sums over the contracted axis. In each layer the reference gathers the rows of
  the node features at the edges' source nodes and the rows of the relation table at the edges' relations, adds the two
  [400000, 200] arrays, and contracts the sum with the layer's [200, 200] message weight. Read at entry (r, c) this is
  `Σ_k (S (r, k) + R (r, k)) · W (k, c)`, with `S`, `R` the two gathered arrays: the form in which the kernel's message
  regions are stated.
-/
import proofs.«413961_j50276887167213_1_alg».proof.Proof.RefRead
import proofs.«413961_j50276887167213_1_alg».proof.Proof.Idx

noncomputable section

namespace Cert.BridgeMsg

open Cert.KernelIdeal.Idx Idealize.ShloMosaic Cert.ReferenceIdeal.ReadP
open Cert.ReferenceIdeal (S20000x200 S460x200 S200x200 S20000 S400000 S400000x200)

/-- LAYER 1. The reference's first message array, entry by entry: the host's contraction of the sum of its two
    gathered [400000, 200] arrays with the first weight reads, at entry `i`, the sum over the 200 contracted positions
    `k` of (the two gathered arrays added, at (row of `i`, `k`)) times (the weight at (`k`, column of `i`)). -/
theorem msg1 (x0 : (⟨S20000x200, .f32⟩ : BufTy).Contents (Elt Ideal)) (x1 : (⟨S460x200, .f32⟩ : BufTy).Contents (Elt Ideal))
    (x2 : (⟨S200x200, .f32⟩ : BufTy).Contents (Elt Ideal)) (x8 : (⟨S20000, .i32⟩ : BufTy).Contents (Elt Ideal))
    (x9 x11 : (⟨S400000, .i32⟩ : BufTy).Contents (Elt Ideal)) :
    (fun i => ∑ k : Fin 200, (val_main_v25 (F := Ideal) x0 x8 x9 (lrowE i k) + val_main_v32 (F := Ideal) x1 x11 (lrowE i k)) * x2 (rcolE i k))
      = val_main_v34 (F := Ideal) x0 x1 x2 x8 x9 x11 := by
  funext i
  refine ((val_main_v34_apply x0 x1 x2 x8 x9 x11 i).trans (Finset.sum_congr rfl fun k _ => ?_)).symm
  rw [val_main_v33_apply]
  rfl

/-- LAYER 2. The same for the second message array: the second layer's two gathered arrays added, contracted with the
    second layer's message weight. -/
theorem msg2 (x0 : (⟨S20000x200, .f32⟩ : BufTy).Contents (Elt Ideal)) (x1 : (⟨S460x200, .f32⟩ : BufTy).Contents (Elt Ideal))
    (x2 x3 x4 x5 : (⟨S200x200, .f32⟩ : BufTy).Contents (Elt Ideal)) (x8 : (⟨S20000, .i32⟩ : BufTy).Contents (Elt Ideal))
    (x9 x10 x11 : (⟨S400000, .i32⟩ : BufTy).Contents (Elt Ideal)) :
    (fun i => ∑ k : Fin 200, (val_main_v55 (F := Ideal) x0 x1 x2 x3 x4 x8 x9 x10 x11 (lrowE i k) + val_main_v62 (F := Ideal) x1 x11 (lrowE i k)) * x5 (rcolE i k))
      = val_main_v64 (F := Ideal) x0 x1 x2 x3 x4 x5 x8 x9 x10 x11 := by
  funext i
  refine ((val_main_v64_apply x0 x1 x2 x3 x4 x5 x8 x9 x10 x11 i).trans (Finset.sum_congr rfl fun k _ => ?_)).symm
  rw [val_main_v63_apply]
  rfl

end Cert.BridgeMsg

end
-- ==== Proof.Blend.lean ====
/-
  The self-loop blend. The kernel mixes its two self-loop products with a float mask, mask · l + (1 − mask) · e,
  where the mask is an i1 bit converted to a float: 1 or 0. On the extended reals 1 · l + (1 − 1) · e = l + 0 · e = l
  and 0 · l + (1 − 0) · e = 0 + e = e, whatever l and e are (0 · x = 0 also at the infinities), so the blend IS the
  selection by the bit that the reference makes. No finiteness is needed.
-/
import Idealize.ShloMosaic.PureOps.Ideal
import Idealize.ShloMosaic.PureOps.Ideal.Laws

noncomputable section

namespace Cert.Blend

open Idealize.ShloMosaic

/-- The f32 word 0x3F800000 denotes the real 1. -/
theorem ofBits_one : Ideal.ofBits .f32 0x3F800000#32 = (1 : EReal) := by
  simp [Ideal.ofBits, Ideal.ieee]
  norm_cast
  norm_num

/-- mask · l + (1 − mask) · e, the mask a converted bit, is the selection by the bit. -/
theorem blend (p : BitVec 1) (l e : Ideal .f32) :
    FloatOps.addf (F := Ideal) (FloatOps.mulf (FloatOps.uitofp .f32 p) l)
        (FloatOps.mulf (FloatOps.subf (Scalar.ofBits .f32 0x3F800000#32) (FloatOps.uitofp .f32 p)) e)
      = Scalar.select p l e := by
  show ((((p.toNat : ℝ) : EReal) * l) + ((Ideal.ofBits .f32 0x3F800000#32 - ((p.toNat : ℝ) : EReal)) * e) : EReal) = Scalar.select p l e
  rw [ofBits_one]
  have h11 : ((1 : EReal) - 1) = 0 := by
    have h : ((1 : EReal) - 1) = (((1 : ℝ) - 1 : ℝ) : EReal) := by rw [EReal.coe_sub, EReal.coe_one]
    rw [h, sub_self, EReal.coe_zero]
  rcases (by decide : ∀ q : BitVec 1, q = 0#1 ∨ q = 1#1) p with rfl | rfl
  · simp [Scalar.select]
  · simp [Scalar.select, h11]

end Cert.Blend

end
-- ==== Proof.BridgeComb.lean ====
/-
  The combine step as the kernel computes it is the reference's. The kernel blends its two self-loop products with the
  has-incoming-edge mask as a float, mask · l + (1 − mask) · e; the reference selects between them by the mask as a bit.
  With the float mask the converted bit the two agree (the blend law), and everything else in the two element
  formulas is the same operations on the same operands in the same order: agg · norm + (that), then the leaky
  rectifier with the same slope word. Stated for both layers.
-/
import proofs.«413961_j50276887167213_1_alg».proof.Proof.RefRead
import proofs.«413961_j50276887167213_1_alg».proof.Proof.Idx
import proofs.«413961_j50276887167213_1_alg».proof.Proof.CombValue1
import proofs.«413961_j50276887167213_1_alg».proof.Proof.CombValue3
import proofs.«413961_j50276887167213_1_alg».proof.Proof.Blend

noncomputable section

namespace Cert.BridgeComb

open Cert.KernelIdeal.Idx Idealize.ShloMosaic Cert.ReferenceIdeal Cert.ReferenceIdeal.ReadP
open scoped BigOperators

/-- One element of the first layer's combine step with the mask a converted bit p: the blend is the selection by p,
    so the element is the leaky rectifier of agg · norm + (p ? l : e), spelt with the reference's operations. -/
theorem combAt_bit (agg nrm ll le : Ideal .f32) (p : BitVec 1) :
    Cert.KernelIdeal.CombValue1.combAt agg nrm (FloatOps.uitofp (F := Ideal) .f32 p) ll le
      = Scalar.select (FloatOps.cmpf .oge (FloatOps.addf (FloatOps.mulf agg nrm) (Scalar.select p ll le)) (FloatOps.ofBits .f32 0x00000000#32))
          (FloatOps.addf (FloatOps.mulf agg nrm) (Scalar.select p ll le))
          (FloatOps.mulf (FloatOps.ofBits .f32 0x3E6AAAAB#32) (FloatOps.addf (FloatOps.mulf agg nrm) (Scalar.select p ll le))) := by
  rw [← Cert.Blend.blend p ll le]
  rfl

/-- The same for the second layer's copy of the element formula. -/
theorem combAt_bit' (agg nrm ll le : Ideal .f32) (p : BitVec 1) :
    Cert.KernelIdeal.CombValue3.combAt agg nrm (FloatOps.uitofp (F := Ideal) .f32 p) ll le
      = Scalar.select (FloatOps.cmpf .oge (FloatOps.addf (FloatOps.mulf agg nrm) (Scalar.select p ll le)) (FloatOps.ofBits .f32 0x00000000#32))
          (FloatOps.addf (FloatOps.mulf agg nrm) (Scalar.select p ll le))
          (FloatOps.mulf (FloatOps.ofBits .f32 0x3E6AAAAB#32) (FloatOps.addf (FloatOps.mulf agg nrm) (Scalar.select p ll le))) := by
  rw [← Cert.Blend.blend p ll le]
  rfl

/-- FIRST LAYER: the kernel's combine formula over the reference's aggregated messages, normaliser, mask and gathered
    features is the reference's first-layer output. -/
theorem comb1 (x0 : (⟨S20000x200, .f32⟩ : BufTy).Contents (Elt Ideal)) (x1 : (⟨S460x200, .f32⟩ : BufTy).Contents (Elt Ideal))
    (x2 x3 x4 : (⟨S200x200, .f32⟩ : BufTy).Contents (Elt Ideal)) (x8 : (⟨S20000, .i32⟩ : BufTy).Contents (Elt Ideal))
    (x9 x10 x11 : (⟨S400000, .i32⟩ : BufTy).Contents (Elt Ideal)) (MSK : (⟨S20000x1, .f32⟩ : BufTy).Contents (Elt Ideal))
    (hMSK : ∀ r, MSK r = FloatOps.uitofp (F := Ideal) .f32 (val_main_v18 (F := Ideal) x10 r)) :
    (fun i : S20000x200.Idx => Cert.KernelIdeal.CombValue1.combAt (val_main_v37 (F := Ideal) x0 x1 x2 x8 x9 x10 x11 i)
        (val_main_v15 (F := Ideal) x10 (col0N i)) (MSK (col0N i))
        (∑ k : Fin 200, val_main_v6 (F := Ideal) x0 x8 (lrowN i k) * x3 (rcolN i k))
        (∑ k : Fin 200, val_main_v6 (F := Ideal) x0 x8 (lrowN i k) * x4 (rcolN i k)))
      = val_main_v48 (F := Ideal) x0 x1 x2 x3 x4 x8 x9 x10 x11 := by
  funext i
  show Cert.KernelIdeal.CombValue1.combAt _ _ (MSK (col0N i)) _ _ = _
  rw [hMSK (col0N i), combAt_bit]
  rw [val_main_v48_apply, val_main_v45_apply, val_main_v47_apply, val_main_v43_apply, val_main_v39_apply, val_main_v42_apply,
    val_main_v40_apply, val_main_v41_apply, val_main_v38_apply, val_main_call0_v0_apply, val_main_v44_apply, val_main_v46_apply,
    val_main_cst_10_apply, val_main_cst_11_apply]
  rfl

/-- SECOND LAYER: the same over the first layer's output and the second layer's weights. -/
theorem comb2 (x0 : (⟨S20000x200, .f32⟩ : BufTy).Contents (Elt Ideal)) (x1 : (⟨S460x200, .f32⟩ : BufTy).Contents (Elt Ideal))
    (x2 x3 x4 x5 x6 x7 : (⟨S200x200, .f32⟩ : BufTy).Contents (Elt Ideal)) (x8 : (⟨S20000, .i32⟩ : BufTy).Contents (Elt Ideal))
    (x9 x10 x11 : (⟨S400000, .i32⟩ : BufTy).Contents (Elt Ideal)) (MSK : (⟨S20000x1, .f32⟩ : BufTy).Contents (Elt Ideal))
    (hMSK : ∀ r, MSK r = FloatOps.uitofp (F := Ideal) .f32 (val_main_v18 (F := Ideal) x10 r)) :
    (fun i : S20000x200.Idx => Cert.KernelIdeal.CombValue3.combAt (val_main_v67 (F := Ideal) x0 x1 x2 x3 x4 x5 x8 x9 x10 x11 i)
        (val_main_v15 (F := Ideal) x10 (col0N i)) (MSK (col0N i))
        (∑ k : Fin 200, val_main_v48 (F := Ideal) x0 x1 x2 x3 x4 x8 x9 x10 x11 (lrowN i k) * x6 (rcolN i k))
        (∑ k : Fin 200, val_main_v48 (F := Ideal) x0 x1 x2 x3 x4 x8 x9 x10 x11 (lrowN i k) * x7 (rcolN i k)))
      = val_main_v78 (F := Ideal) x0 x1 x2 x3 x4 x5 x6 x7 x8 x9 x10 x11 := by
  funext i
  show Cert.KernelIdeal.CombValue3.combAt _ _ (MSK (col0N i)) _ _ = _
  rw [hMSK (col0N i), combAt_bit']
  rw [val_main_v78_apply, val_main_v75_apply, val_main_v77_apply, val_main_v73_apply, val_main_v69_apply, val_main_v72_apply,
    val_main_v70_apply, val_main_v71_apply, val_main_v68_apply, val_main_call2_v0_apply, val_main_v74_apply, val_main_v76_apply,
    val_main_cst_17_apply, val_main_cst_18_apply]
  rfl

end Cert.BridgeComb

end
-- ==== Proof.Fold.lean ====
/-
  The kernel program's result as a function of its arguments. @main of the kernel program is twelve segments: host
  stretches (row gathers, the in-degree and its two per-node columns, the scatter-adds of the messages) and four
  kernel regions (message, combine, message, combine). The generated fold W0 … W12 names the buffer contents at each
  segment boundary. Going through the boundaries in order, each buffer a later segment reads is identified with the
  stage of the reference program that computes the same array from the same arguments:
    the node rows h = ent_emb[node_id]; the degree normaliser and the has-incoming-edge bit;
    layer 1: the gathered rows h[src] and rel_emb[etype], the messages (h[src] + rel_emb[etype]) · Wn1, their
    scatter-add over dst, the combine step (rectified agg · norm + (has_in ? h · Wl1 : h · We1));
    layer 2: the same from layer 1's output with Wn2, Wl2, We2.
  The gathers agree with the reference's because every index is in range (the statement's precondition): the kernel
  program's gather tests the range and would fill a row with the NaN word outside it, the reference's clamps.
  The regions' arrays are what the value modules of the regions say; the reference's stages are read index by index.
-/
import proofs.«413961_j50276887167213_1_alg».proof.Proof.Gen.KernelIdeal.Frame
import proofs.«413961_j50276887167213_1_alg».proof.Proof.Walk
import proofs.«413961_j50276887167213_1_alg».proof.Proof.TakeRows
import proofs.«413961_j50276887167213_1_alg».proof.Proof.MsgValue0
import proofs.«413961_j50276887167213_1_alg».proof.Proof.MsgValue2
import proofs.«413961_j50276887167213_1_alg».proof.Proof.CombValue1
import proofs.«413961_j50276887167213_1_alg».proof.Proof.CombValue3
import proofs.«413961_j50276887167213_1_alg».proof.Proof.RefRead
import proofs.«413961_j50276887167213_1_alg».proof.Proof.BridgeMsg
import proofs.«413961_j50276887167213_1_alg».proof.Proof.BridgeComb
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Cert.ReferenceIdeal.ReadP (val_main_v6 val_main_v15 val_main_v17 val_main_v18 val_main_v25 val_main_v32 val_main_v34 val_main_v37
  val_main_v48 val_main_v55 val_main_v62 val_main_v64 val_main_v67 val_main_v78)

variable (m : (ℓ : Loc nD τ sig) → Buf (Elt Ideal) ℓ) (ρ : Dev nD → PrngReg) (c : Dev nD)

/-- The launch contents of argument k on core c. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)

/-- Every index in range: node_id and src in [0, 20000), etype in [0, 460). -/
structure InRange : Prop where
  node : ∀ j, IntOp.cmpi .sge (a8 m c j) 0#32 = 1#1 ∧ IntOp.cmpi .slt (a8 m c j) 20000#32 = 1#1
  src : ∀ j, IntOp.cmpi .sge (a9 m c j) 0#32 = 1#1 ∧ IntOp.cmpi .slt (a9 m c j) 20000#32 = 1#1
  etype : ∀ j, IntOp.cmpi .sge (a11 m c j) 0#32 = 1#1 ∧ IntOp.cmpi .slt (a11 m c j) 460#32 = 1#1

/-! ## Before the first region -/

/-- The node rows: ent_emb[node_id]. -/
theorem h0 (hr : InRange m c) : W1 m ρ c (Proc.devRef .tc main_v0) = val_main_v6 (F := Ideal) (a0 m c) (a8 m c) :=
  (TakeRows.take_v0 (W0 m ρ c) hr.node).trans rfl

/-- The degree normaliser 1 / max(in_deg, 1), as a column. -/
theorem norm : W2 m ρ c (Proc.devRef .tc main_v9) = val_main_v15 (F := Ideal) (a10 m c) := by
  show StableHlo.after hostOps0_1 (W1 m ρ c) (Proc.devRef .tc main_v9) = _
  after_results_simp
  rfl

/-- The has-incoming-edge mask as a float column: the reference's bit, converted. -/
theorem mask (r : S20000x1.Idx) : W2 m ρ c (Proc.devRef .tc main_v13) r = FloatOps.uitofp (F := Ideal) .f32 (val_main_v18 (F := Ideal) (a10 m c) r) := by
  show StableHlo.after hostOps0_1 (W1 m ρ c) (Proc.devRef .tc main_v13) r = _
  after_results_simp
  rfl

/-! ## Layer 1 -/

/-- The gathered node rows h[src]. -/
theorem hsrc1 (hr : InRange m c) : W3 m ρ c (Proc.devRef .tc main_v14) = val_main_v25 (F := Ideal) (a0 m c) (a8 m c) (a9 m c) := by
  refine (TakeRows.take_v14 (W2 m ρ c) (by rw [Walk.W2_main_arg9 m ρ c]; exact hr.src)).trans ?_
  rw [Walk.W2_main_v0 m ρ c, h0 m ρ c hr, Walk.W2_main_arg9 m ρ c]
  rfl

/-- The gathered relation rows rel_emb[etype]. -/
theorem rel1 (hr : InRange m c) : W4 m ρ c (Proc.devRef .tc main_v15) = val_main_v32 (F := Ideal) (a1 m c) (a11 m c) := by
  refine (TakeRows.take_v15 (W3 m ρ c) (by rw [Walk.W3_main_arg11 m ρ c]; exact hr.etype)).trans ?_
  rw [Walk.W3_main_arg1 m ρ c, Walk.W3_main_arg11 m ρ c]
  rfl

/-- The messages (h[src] + rel_emb[etype]) · Wn1: region 0's result array. -/
theorem msg1 (hr : InRange m c) : W5 m ρ c (Proc.devRef .tc main_v16) = val_main_v34 (F := Ideal) (a0 m c) (a1 m c) (a2 m c) (a8 m c) (a9 m c) (a11 m c) :=
  (W5_arr m ρ c 3).trans ((MsgValue0.final0 (V4 m ρ) c _ _ _ ((Walk.W4_main_v14 m ρ c).trans (hsrc1 m ρ c hr)) (rel1 m ρ c hr) (Walk.W4_main_arg2 m ρ c)).trans
    (Cert.BridgeMsg.msg1 _ _ _ _ _ _))

/-- The messages summed into their destination nodes. -/
theorem agg1 (hr : InRange m c) : W6 m ρ c (Proc.devRef .tc main_v19) = val_main_v37 (F := Ideal) (a0 m c) (a1 m c) (a2 m c) (a8 m c) (a9 m c) (a10 m c) (a11 m c) := by
  show StableHlo.after hostOps1 (W5 m ρ c) (Proc.devRef .tc main_v19) = _
  after_results_simp
  rw [msg1 m ρ c hr, Walk.W5_main_arg10 m ρ c]
  rfl

/-- Layer 1's output: region 1's result array. -/
theorem out1 (hr : InRange m c) : W7 m ρ c (Proc.devRef .tc main_v20) = val_main_v48 (F := Ideal) (a0 m c) (a1 m c) (a2 m c) (a3 m c) (a4 m c) (a8 m c) (a9 m c) (a10 m c) (a11 m c) :=
  (W7_arr m ρ c 6).trans ((CombValue1.final1 (V6 m ρ) c _ _ _ _ _ _ ((Walk.W6_main_v0 m ρ c).trans (h0 m ρ c hr)) (agg1 m ρ c hr)
      ((Walk.W6_main_v9 m ρ c).trans (norm m ρ c)) (Walk.W6_main_v13 m ρ c) (Walk.W6_main_arg3 m ρ c) (Walk.W6_main_arg4 m ρ c)).trans
    (Cert.BridgeComb.comb1 _ _ _ _ _ _ _ _ _ _ (mask m ρ c)))

/-! ## Layer 2 -/

/-- The gathered rows of layer 1's output. -/
theorem hsrc2 (hr : InRange m c) : W8 m ρ c (Proc.devRef .tc main_v21) = val_main_v55 (F := Ideal) (a0 m c) (a1 m c) (a2 m c) (a3 m c) (a4 m c) (a8 m c) (a9 m c) (a10 m c) (a11 m c) := by
  refine (TakeRows.take_v21 (W7 m ρ c) (by rw [Walk.W7_main_arg9 m ρ c]; exact hr.src)).trans ?_
  rw [out1 m ρ c hr, Walk.W7_main_arg9 m ρ c]
  rfl

/-- The gathered relation rows, again. -/
theorem rel2 (hr : InRange m c) : W9 m ρ c (Proc.devRef .tc main_v22) = val_main_v62 (F := Ideal) (a1 m c) (a11 m c) := by
  refine (TakeRows.take_v22 (W8 m ρ c) (by rw [Walk.W8_main_arg11 m ρ c]; exact hr.etype)).trans ?_
  rw [Walk.W8_main_arg1 m ρ c, Walk.W8_main_arg11 m ρ c]
  rfl

/-- Layer 2's messages: region 2's result array. -/
theorem msg2 (hr : InRange m c) : W10 m ρ c (Proc.devRef .tc main_v23) = val_main_v64 (F := Ideal) (a0 m c) (a1 m c) (a2 m c) (a3 m c) (a4 m c) (a5 m c) (a8 m c) (a9 m c) (a10 m c) (a11 m c) :=
  (W10_arr m ρ c 3).trans ((MsgValue2.final2 (V9 m ρ) c _ _ _ ((Walk.W9_main_v21 m ρ c).trans (hsrc2 m ρ c hr)) (rel2 m ρ c hr) (Walk.W9_main_arg5 m ρ c)).trans
    (Cert.BridgeMsg.msg2 _ _ _ _ _ _ _ _ _ _))

/-- Layer 2's messages summed into their destination nodes. -/
theorem agg2 (hr : InRange m c) : W11 m ρ c (Proc.devRef .tc main_v26) = val_main_v67 (F := Ideal) (a0 m c) (a1 m c) (a2 m c) (a3 m c) (a4 m c) (a5 m c) (a8 m c) (a9 m c) (a10 m c) (a11 m c) := by
  show StableHlo.after hostOps3 (W10 m ρ c) (Proc.devRef .tc main_v26) = _
  after_results_simp
  rw [msg2 m ρ c hr, Walk.W10_main_arg10 m ρ c]
  rfl

/-- THE RESULT: region 3's result array is the reference's last stage of the same arguments. -/
theorem result (hr : InRange m c) : W12 m ρ c (Proc.devRef .tc main_v27) = val_main_v78 (F := Ideal) (a0 m c) (a1 m c) (a2 m c) (a3 m c) (a4 m c) (a5 m c) (a6 m c) (a7 m c) (a8 m c) (a9 m c) (a10 m c) (a11 m c) :=
  (W12_arr m ρ c 6).trans ((CombValue3.final3 (V11 m ρ) c _ _ _ _ _ _ ((Walk.W11_main_v20 m ρ c).trans (out1 m ρ c hr)) (agg2 m ρ c hr)
      ((Walk.W11_main_v9 m ρ c).trans (norm m ρ c)) (Walk.W11_main_v13 m ρ c) (Walk.W11_main_arg6 m ρ c) (Walk.W11_main_arg7 m ρ c)).trans
    (Cert.BridgeComb.comb2 _ _ _ _ _ _ _ _ _ _ _ _ _ (mask m ρ c)))

end Cert.KernelIdeal.Fold

end
-- ==== Proof.lean ====
/-
  The kernel runs a two-layer relational graph convolution: per layer, messages (h[src] + rel_emb[etype]) · Wn on the
  edges, their sum into the destination nodes, the degree normalisation, a self-loop through Wl for nodes with an
  incoming edge and through We for the others, and a leaky rectifier of slope f32(11/48). The gathers and the
  scatter-adds are host operations on both sides; the two matrix steps of a layer are Pallas kernels on the kernel's
  side (a row-blocked product, and a row-blocked product pair with the pointwise tail) and plain jnp on the
  reference's. Over the extended reals the two programs compute the same array:
    · a product taken block of rows by block of rows is the product (each output row depends on one input row);
    · the 16-bit narrowing before the products is the identity;
    · the kernel's float mask blend  m · l + (1 − m) · e, m ∈ {0, 1},  is the reference's selection (Proof/Blend.lean);
    · the kernel's gathers (jnp.take: a row of NaN words for an index out of range) and the reference's (x[i]: clamped)
      agree for indices in range — the statement's precondition asks node_id, src in [0, 20000) and etype in [0, 460),
      the domain on which the reference's own indexing is in range; outside it the two programs differ.
  No finiteness is used in the value argument: every law above holds at the infinities too.
  The frames of the two kernel programs are the generated ones; the reference's frame is its run with the result
  dropped; the idealization rewrote nothing, so `preserves` is trivial. For the value claim the kernel program's
  run is read at its last segment boundary (Proof/KernelIdealRun.lean), that boundary's contents are walked back
  through the twelve segments to the arguments (Proof/Fold.lean over Proof/Walk.lean, the regions' values from
  Proof/MsgValue0, CombValue1 and their twins), and identified stage by stage with the reference's run.
-/
import proofs.«413961_j50276887167213_1_alg».proof.Defs
import proofs.«413961_j50276887167213_1_alg».proof.Proof.Gen.Kernel
import proofs.«413961_j50276887167213_1_alg».proof.Proof.Gen.Kernel.Frame
import proofs.«413961_j50276887167213_1_alg».proof.Proof.Gen.KernelIdeal
import proofs.«413961_j50276887167213_1_alg».proof.Proof.Gen.KernelIdeal.Frame
import proofs.«413961_j50276887167213_1_alg».proof.Proof.Gen.ReferenceIdeal
import proofs.«413961_j50276887167213_1_alg».proof.Proof.Gen.Pre_finite_inputs
import proofs.«413961_j50276887167213_1_alg».proof.Proof.KernelIdealRun
import proofs.«413961_j50276887167213_1_alg».proof.Proof.RefRun
import proofs.«413961_j50276887167213_1_alg».proof.Proof.RefRead
import proofs.«413961_j50276887167213_1_alg».proof.Proof.Ranges
import proofs.«413961_j50276887167213_1_alg».proof.Proof.Fold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both runs end with the result at the reference's last stage of the (agreeing) arguments. -/
theorem algebraic : Cert.algebraic_KernelIdeal_ReferenceIdeal := by
  intro m ρ m' ρ' hpre hagree
  have hr : ∀ c, Cert.KernelIdeal.Fold.InRange m c := fun c => by
    obtain ⟨h8, h9, h11⟩ := Cert.PreDecode.ranges _ _ _ _ _ _ _ _ _ _ _ _ (hpre c)
    exact ⟨h8, h9, h11⟩
  refine ⟨fun c => Cert.ReferenceIdeal.ReadP.val_main_v78 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Fold.result m ρ c (hr c)), (h c).2⟩)
      (Cert.KernelIdeal.RunValue.run_value m ρ)
  · refine (θ_run Cert.ReferenceIdeal.defs _ _).mono (fun r h c => ⟨?_, (h c).2⟩)
      (Cert.ReferenceIdeal.ValueP.run (F := Ideal) m' ρ')
    obtain ⟨e0, e1, e2, e3, e4, e5, e6, e7, e8, e9, e10, e11⟩ := hagree c
    rw [(h c).1, Cert.ReferenceIdeal.ReadP.val_main_v78_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
